-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  IdealRules.named_const.Statement Cert.KernelIdeal.κ "inv_temperature" .f32 0x41649249#32 ((134217728 / 9395241 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x128 : Shape := ⟨2, ![8192, 128]⟩
abbrev S8192 : Shape := ⟨1, ![8192]⟩
abbrev S_ : Shape := ⟨0, ![]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel

variable [Facts]

def fn {F : FTy → Type} [FloatOps F] (main_arg0 : FVec F S8192x128 .f32) (main_arg1 : IVec S8192 32) : IVec S_ 1 :=
  let main_v0 : FVec F S8192x128 .f32 := Host.absf main_arg0
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  let main_c : IVec S_ 1 := constantI S_ 1 1#1
  let main_v3 : IVec S_ 1 := (fun x v => Host.reduce IntOp.andi x v reducesTo_S8192x128_S_d0_1 h_S_) main_v2 main_c
  main_v3
-- ==== Kernel.lean ====
abbrev S8192x128 : Shape := ⟨2, ![8192, 128]⟩
abbrev S8192 : Shape := ⟨1, ![8192]⟩
abbrev S8192x1 : Shape := ⟨2, ![8192, 1]⟩
abbrev S1x8192 : Shape := ⟨2, ![1, 8192]⟩
abbrev S128x128 : Shape := ⟨2, ![128, 128]⟩
abbrev S128x1 : Shape := ⟨2, ![128, 1]⟩
abbrev S128x8192 : Shape := ⟨2, ![128, 8192]⟩
abbrev S128 : Shape := ⟨1, ![128]⟩
abbrev S_ : Shape := ⟨0, ![]⟩

abbrev nBuf : Space → Nat
  | .hbm => 14
  | .vmem => 10
  | .smem => 0
  | _ => 0

abbrev bufTy : (tb : Table) → Fin (tcTables nBuf tb) → BufTy
  | .hbm, ⟨0, _⟩ => ⟨S8192x128, .f32⟩
  | .hbm, ⟨1, _⟩ => ⟨S8192, .i32⟩
  | .hbm, ⟨2, _⟩ => ⟨S8192x1, .i32⟩
  | .hbm, ⟨3, _⟩ => ⟨S1x8192, .i32⟩
  | .hbm, ⟨4, _⟩ => ⟨S8192x1, .f32⟩
  | .hbm, ⟨5, _⟩ => ⟨S8192x1, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .local _ .vmem, ⟨0, _⟩ => ⟨S128x128, .f32⟩
  | .local _ .vmem, ⟨1, _⟩ => ⟨S128x128, .f32⟩
  | .local _ .vmem, ⟨2, _⟩ => ⟨S8192x128, .f32⟩
  | .local _ .vmem, ⟨3, _⟩ => ⟨S128x1, .i32⟩
  | .local _ .vmem, ⟨4, _⟩ => ⟨S128x1, .i32⟩
  | .local _ .vmem, ⟨5, _⟩ => ⟨S1x8192, .i32⟩
  | .local _ .vmem, ⟨6, _⟩ => ⟨S128x1, .f32⟩
  | .local _ .vmem, ⟨7, _⟩ => ⟨S128x1, .f32⟩
  | .local _ .vmem, ⟨8, _⟩ => ⟨S128x1, .f32⟩
  | .local _ .vmem, ⟨9, _⟩ => ⟨S128x1, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_cst : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8192x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S128x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x8192 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S128x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S8192_S8192x1 : S8192.ShapeCasts S8192x1
  shapeCasts_S8192_S1x8192 : S8192.ShapeCasts S1x8192
  inb_S128x128_S128x128_0_0 : ∀ a, (![0, 0] : Fin 2 → Nat) a + S128x128.size a ≤ S128x128.size a
  h_S128x128 : 0 < S128x128.numel
  inb_S8192x128_S8192x128_0_0 : ∀ a, (![0, 0] : Fin 2 → Nat) a + S8192x128.size a ≤ S8192x128.size a
  h_S8192x128 : 0 < S8192x128.numel
  iota_S128x1_d0_w32 : S128x1.Iotas .tc 32 [0]
  iota_S1x8192_d1_w32 : S1x8192.Iotas .tc 32 [1]
  broadcasts_S128x1_S128x8192 : S128x1.Broadcasts S128x8192
  broadcasts_S1x8192_S128x8192 : S1x8192.Broadcasts S128x8192
  inb_S128x1_S128x1_0_0 : ∀ a, (![0, 0] : Fin 2 → Nat) a + S128x1.size a ≤ S128x1.size a
  h_S128x1 : 0 < S128x1.numel
  shapeCasts_S128x1_S128x1 : S128x1.ShapeCasts S128x1
  inb_S1x8192_S1x8192_0_0 : ∀ a, (![0, 0] : Fin 2 → Nat) a + S1x8192.size a ≤ S1x8192.size a
  h_S1x8192 : 0 < S1x8192.numel
  shapeCasts_S1x8192_S1x8192 : S1x8192.ShapeCasts S1x8192
  reduces_S128x8192_S128 : S128x8192.Reduces [1] S128
  shapeCasts_S128_S128x1 : S128.ShapeCasts S128x1
  natLt_1_32 : 1 < 32
  reducesTo_S8192x1_S_d0_1 : S8192x1.ReducesTo [0, 1] S_
  h_S_ : 0 < S_.numel
  dot_S128x128_S8192x128_S128x8192_1_1_0_0_n_n_wf : DotDims.WF S128x128 S8192x128 S128x8192 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x128.size a ≤ S8192x128.size a
  hwx0_0 : ∀ i : grid0.Coords, EltTy.bits .f32 = 32 ∨ (Rect.block (s := S8192x128) S128x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8192x128.size a ≤ S8192x128.size a
  hwx0_1 : ∀ i : grid0.Coords, EltTy.bits .f32 = 32 ∨ (Rect.block (s := S8192x128) S8192x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x1.size a ≤ S8192x1.size a
  hwx0_2 : ∀ i : grid0.Coords, EltTy.bits .i32 = 32 ∨ (Rect.block (s := S8192x1) S128x1.size (cc0_transform_2 i) (hinb0_2 i)).WholeWords (EltTy.packing .i32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x8192.size a ≤ S1x8192.size a
  hwx0_3 : ∀ i : grid0.Coords, EltTy.bits .i32 = 32 ∨ (Rect.block (s := S1x8192) S1x8192.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S128x1.size a ≤ S8192x1.size a
  hwx0_4 : ∀ i : grid0.Coords, EltTy.bits .f32 = 32 ∨ (Rect.block (s := S8192x1) S128x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S128x1.size a ≤ S8192x1.size a
  hwx0_5 : ∀ i : grid0.Coords, EltTy.bits .f32 = 32 ∨ (Rect.block (s := S8192x1) S128x1.size (cc0_transform_5 i) (hinb0_5 i)).WholeWords (EltTy.packing .f32)

variable [Facts₀]

def dot_S128x128_S8192x128_S128x8192_1_1_0_0_n_n : DotDims S128x128 S8192x128 S128x8192 where
  lhsContracting := [1]
  rhsContracting := [1]
  lhsNonContracting := [0]
  rhsNonContracting := [0]
  lhsBatch := []
  rhsBatch := []
  wf := dot_S128x128_S8192x128_S128x8192_1_1_0_0_n_n_wf

abbrev win0_0 : Pipeline.Window sig grid0 :=
  Pipeline.Window.ofSpec (Memref.whole main_arg0) S128x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S8192x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S128x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x8192.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2_0) S128x1.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v2_1) S128x1.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S8192x128 : Shape := ⟨2, ![8192, 128]⟩
abbrev S8192 : Shape := ⟨1, ![8192]⟩
abbrev S128x8192 : Shape := ⟨2, ![128, 8192]⟩
abbrev S8192x8192 : Shape := ⟨2, ![8192, 8192]⟩
abbrev S_ : Shape := ⟨0, ![]⟩
abbrev S1x8192 : Shape := ⟨2, ![1, 8192]⟩
abbrev S8192x1 : Shape := ⟨2, ![8192, 1]⟩

abbrev nBuf : Space → Nat
  | .hbm => 70
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S8192, .i32⟩
  | .hbm, ⟨2, _⟩ => ⟨S128x8192, .f32⟩
  | .hbm, ⟨3, _⟩ => ⟨S8192x8192, .f32⟩
  | .hbm, ⟨4, _⟩ => ⟨S_, .f32⟩
  | .hbm, ⟨5, _⟩ => ⟨S8192x8192, .f32⟩
  | .hbm, ⟨6, _⟩ => ⟨S8192x8192, .f32⟩
  | .hbm, ⟨7, _⟩ => ⟨S8192x8192, .i32⟩
  | .hbm, ⟨8, _⟩ => ⟨S8192x8192, .i32⟩
  | .hbm, ⟨9, _⟩ => ⟨S_, .i32⟩
  | .hbm, ⟨10, _⟩ => ⟨S8192x8192, .i32⟩
  | .hbm, ⟨11, _⟩ => ⟨S8192x8192, .i32⟩
  | .hbm, ⟨12, _⟩ => ⟨S8192x8192, .i1⟩
  | .hbm, ⟨13, _⟩ => ⟨S_, .f32⟩
  | .hbm, ⟨14, _⟩ => ⟨S_, .f32⟩
  | .hbm, ⟨15, _⟩ => ⟨S8192x8192, .f32⟩
  | .hbm, ⟨16, _⟩ => ⟨S8192x8192, .f32⟩
  | .hbm, ⟨17, _⟩ => ⟨S1x8192, .i32⟩
  | .hbm, ⟨18, _⟩ => ⟨S8192x1, .i32⟩
  | .hbm, ⟨19, _⟩ => ⟨S8192x8192, .i32⟩
  | .hbm, ⟨20, _⟩ => ⟨S8192x8192, .i32⟩
  | .hbm, ⟨21, _⟩ => ⟨S8192x8192, .i1⟩
  | .hbm, ⟨22, _⟩ => ⟨S8192x8192, .i1⟩
  | .hbm, ⟨23, _⟩ => ⟨S8192x8192, .i1⟩
  | .hbm, ⟨24, _⟩ => ⟨S_, .f32⟩
  | .hbm, ⟨25, _⟩ => ⟨S8192, .f32⟩
  | .hbm, ⟨26, _⟩ => ⟨S_, .f32⟩
  | .hbm, ⟨27, _⟩ => ⟨S8192, .f32⟩
  | .hbm, ⟨28, _⟩ => ⟨S8192, .f32⟩
  | .hbm, ⟨29, _⟩ => ⟨S8192x1, .f32⟩
  | .hbm, ⟨30, _⟩ => ⟨S8192x8192, .f32⟩
  | .hbm, ⟨31, _⟩ => ⟨S8192x8192, .f32⟩
  | .hbm, ⟨32, _⟩ => ⟨S8192x8192, .f32⟩
  | .hbm, ⟨33, _⟩ => ⟨S_, .f32⟩
  | .hbm, ⟨34, _⟩ => ⟨S8192, .f32⟩
  | .hbm, ⟨35, _⟩ => ⟨S8192x1, .f32⟩
  | .hbm, ⟨36, _⟩ => ⟨S8192x1, .f32⟩
  | .hbm, ⟨37, _⟩ => ⟨S8192x8192, .f32⟩
  | .hbm, ⟨38, _⟩ => ⟨S8192x8192, .f32⟩
  | .hbm, ⟨39, _⟩ => ⟨S8192x8192, .i32⟩
  | .hbm, ⟨40, _⟩ => ⟨S_, .i32⟩
  | .hbm, ⟨41, _⟩ => ⟨S8192, .i32⟩
  | .hbm, ⟨42, _⟩ => ⟨S_, .f32⟩
  | .hbm, ⟨43, _⟩ => ⟨S_, .f32⟩
  | .hbm, ⟨44, _⟩ => ⟨S8192x8192, .f32⟩
  | .hbm, ⟨45, _⟩ => ⟨S8192x8192, .f32⟩
  | .hbm, ⟨46, _⟩ => ⟨S_, .f32⟩
  | .hbm, ⟨47, _⟩ => ⟨S8192, .f32⟩
  | .hbm, ⟨48, _⟩ => ⟨S_, .i32⟩
  | .hbm, ⟨49, _⟩ => ⟨S8192, .i32⟩
  | .hbm, ⟨50, _⟩ => ⟨S8192, .i1⟩
  | .hbm, ⟨51, _⟩ => ⟨S_, .i32⟩
  | .hbm, ⟨52, _⟩ => ⟨S8192, .i32⟩
  | .hbm, ⟨53, _⟩ => ⟨S8192, .i32⟩
  | .hbm, ⟨54, _⟩ => ⟨S8192, .f32⟩
  | .hbm, ⟨55, _⟩ => ⟨S8192, .f32⟩
  | .hbm, ⟨56, _⟩ => ⟨S_, .f32⟩
  | .hbm, ⟨57, _⟩ => ⟨S_, .f32⟩
  | .hbm, ⟨58, _⟩ => ⟨S8192, .f32⟩
  | .hbm, ⟨59, _⟩ => ⟨S8192, .f32⟩
  | .hbm, ⟨60, _⟩ => ⟨S8192, .i32⟩
  | .hbm, ⟨61, _⟩ => ⟨S_, .i32⟩
  | .hbm, ⟨62, _⟩ => ⟨S_, .i32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S_, .i32⟩
  | .hbm, ⟨67, _⟩ => ⟨S_, .i32⟩
  | .hbm, ⟨68, _⟩ => ⟨S_, .f32⟩
  | .hbm, ⟨69, _⟩ => ⟨S_, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_c : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_call0_v0 : Ref sig .tc := ⟨.hbm, 14, rfl⟩
abbrev main_call0_v1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_call1_cst : Ref sig .tc := ⟨.hbm, 24, rfl⟩
abbrev main_call1_v0 : Ref sig .tc := ⟨.hbm, 25, rfl⟩
abbrev main_call1_cst_0 : Ref sig .tc := ⟨.hbm, 26, rfl⟩
abbrev main_call1_v1 : Ref sig .tc := ⟨.hbm, 27, rfl⟩
abbrev main_call1_v2 : Ref sig .tc := ⟨.hbm, 28, rfl⟩
abbrev main_call1_v3 : Ref sig .tc := ⟨.hbm, 29, rfl⟩
abbrev main_call1_v4 : Ref sig .tc := ⟨.hbm, 30, rfl⟩
abbrev main_call1_v5 : Ref sig .tc := ⟨.hbm, 31, rfl⟩
abbrev main_call1_v6 : Ref sig .tc := ⟨.hbm, 32, rfl⟩
abbrev main_call1_cst_1 : Ref sig .tc := ⟨.hbm, 33, rfl⟩
abbrev main_call1_v7 : Ref sig .tc := ⟨.hbm, 34, rfl⟩
abbrev main_call1_v8 : Ref sig .tc := ⟨.hbm, 35, rfl⟩
abbrev main_call1_v9 : Ref sig .tc := ⟨.hbm, 36, rfl⟩
abbrev main_call1_v10 : Ref sig .tc := ⟨.hbm, 37, rfl⟩
abbrev main_v17 : Ref sig .tc := ⟨.hbm, 38, rfl⟩
abbrev main_v18 : Ref sig .tc := ⟨.hbm, 39, rfl⟩
abbrev main_c_1 : Ref sig .tc := ⟨.hbm, 40, rfl⟩
abbrev main_v19 : Ref sig .tc := ⟨.hbm, 41, rfl⟩
abbrev main_cst_2 : Ref sig .tc := ⟨.hbm, 42, rfl⟩
abbrev main_call2_v0 : Ref sig .tc := ⟨.hbm, 43, rfl⟩
abbrev main_call2_v1 : Ref sig .tc := ⟨.hbm, 44, rfl⟩
abbrev main_v20 : Ref sig .tc := ⟨.hbm, 45, rfl⟩
abbrev main_cst_3 : Ref sig .tc := ⟨.hbm, 46, rfl⟩
abbrev main_v21 : Ref sig .tc := ⟨.hbm, 47, rfl⟩
abbrev main_c_4 : Ref sig .tc := ⟨.hbm, 48, rfl⟩
abbrev main_v22 : Ref sig .tc := ⟨.hbm, 49, rfl⟩
abbrev main_v23 : Ref sig .tc := ⟨.hbm, 50, rfl⟩
abbrev main_c_5 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_cst_6 : Ref sig .tc := ⟨.hbm, 56, rfl⟩
abbrev main_call3_v0 : Ref sig .tc := ⟨.hbm, 57, rfl⟩
abbrev main_call3_v1 : Ref sig .tc := ⟨.hbm, 58, rfl⟩
abbrev main_v28 : Ref sig .tc := ⟨.hbm, 59, rfl⟩
abbrev main_v29 : Ref sig .tc := ⟨.hbm, 60, rfl⟩
abbrev main_c_7 : Ref sig .tc := ⟨.hbm, 61, rfl⟩
abbrev main_v30 : Ref sig .tc := ⟨.hbm, 62, rfl⟩
abbrev main_cst_8 : Ref sig .tc := ⟨.hbm, 63, rfl⟩
abbrev main_v31 : Ref sig .tc := ⟨.hbm, 64, rfl⟩
abbrev main_v32 : Ref sig .tc := ⟨.hbm, 65, rfl⟩
abbrev main_c_9 : Ref sig .tc := ⟨.hbm, 66, rfl⟩
abbrev main_v33 : Ref sig .tc := ⟨.hbm, 67, rfl⟩
abbrev main_v34 : Ref sig .tc := ⟨.hbm, 68, rfl⟩
abbrev main_v35 : Ref sig .tc := ⟨.hbm, 69, rfl⟩

abbrev nD : Nat := 1
abbrev τ : Topo := Topo.v7x

variable {F : FTy → Type} [FloatOps F]

class Facts₀ : Prop where
  transposes_S8192x128_S128x8192_1_0 : S8192x128.Transposes [1, 0] S128x8192
  bcast_S_S8192x8192 : S_.BroadcastsInDim S8192x8192 (![] : Fin 0 → Fin S8192x8192.rank)
  bcast_S8192_S1x8192_1 : S8192.BroadcastsInDim S1x8192 (![1] : Fin 1 → Fin S1x8192.rank)
  bcast_S8192_S8192x1_0 : S8192.BroadcastsInDim S8192x1 (![0] : Fin 1 → Fin S8192x1.rank)
  bcast_S1x8192_S8192x8192_0_1 : S1x8192.BroadcastsInDim S8192x8192 (![0, 1] : Fin 2 → Fin S8192x8192.rank)
  bcast_S8192x1_S8192x8192_0_1 : S8192x1.BroadcastsInDim S8192x8192 (![0, 1] : Fin 2 → Fin S8192x8192.rank)
  reducesTo_S8192x8192_S8192_d1 : S8192x8192.ReducesTo [1] S8192
  h_S_ : 0 < S_.numel
  bcast_S_S8192 : S_.BroadcastsInDim S8192 (![] : Fin 0 → Fin S8192.rank)
  natLt_1_32 : 1 < 32
  reducesTo_S8192_S_d0 : S8192.ReducesTo [0] S_
  dot_S8192x128_S128x8192_S8192x8192_1_0_0_1_n_n_wf : DotDims.WF S8192x128 S128x8192 S8192x8192 [1] [0] [0] [1] [] []

variable [Facts₀]

def dot_S8192x128_S128x8192_S8192x8192_1_0_0_1_n_n : DotDims S8192x128 S128x8192 S8192x8192 where
  lhsContracting := [1]
  rhsContracting := [0]
  lhsNonContracting := [0]
  rhsNonContracting := [1]
  lhsBatch := []
  rhsBatch := []
  wf := dot_S8192x128_S128x8192_S8192x8192_1_0_0_1_n_n_wf

class Facts : Prop extends Facts₀ where

variable [Facts]
-- ==== Proof.EntryIdeal.lean ====
/-
  The program around its one kernel region: two reshapes of the labels before it, the two reductions, the negation,
  the maximum and the quotient after it. Here: the buffers' contents when the region is entered, each window's block at
  a grid point read off them, the reduction of the program to the region continued by the later operations, and the
  later operations' result as a function of the two arrays the region writes.
-/
import proofs.«138464_j23570780520482_1_alg».proof.Proof.Gen.KernelIdeal.Launch
import proofs.«138464_j23570780520482_1_alg».proof.Proof.Gen.KernelIdeal.Skeleton
import proofs.«138464_j23570780520482_1_alg».proof.Proof.Gen.KernelIdeal.Points
import Idealize.ShloMosaic.Lib.Pipeline.FrameBody
import Idealize.ShloMosaic.Lib.Pipeline.FrameSuffix
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- Core `c`'s buffer contents when the region is entered: after the two reshapes. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The program reduces to its region continued by the later operations, entered at `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- Neither reshape writes an argument: the region finds both as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.reshape_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.reshape_writes, Finset.mem_singleton]
    repeat' apply And.intro
    all_goals exact StableHlo.devRef_ne_of_ne (by decide)))

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- What the operations after the region leave in the result buffer, from the two arrays the region wrote: minus the
    sum of the first over the larger of the sum of the second and one. -/
def tailVal (a4 a5 : FVec F S8192x1 .f32) : FVec F S_ .f32 :=
  Host.divf (Host.negf (Host.reduceAdd a4 (constant S_ .f32 0x00000000#32) reducesTo_S8192x1_S_d0_1 h_S_))
    (maximumf (Host.reduceAdd a5 (constant S_ .f32 0x00000000#32) reducesTo_S8192x1_S_d0_1 h_S_) (constant S_ .f32 0x3F800000#32))

end Cert.KernelIdeal.Hand

end
-- ==== Proof.BodyIdeal.lean ====
/-
  The kernel body as a triple, and the proof data of the pipeline that runs it. The body loads its four input
  buffers whole, computes, and stores each of its two output buffers whole; so what it leaves in an output buffer
  is the stored payload, a function of the four input blocks and the grid point alone. The proof data name, per
  window and point, the block the body finds and the contents it leaves.
-/
import proofs.«138464_j23570780520482_1_alg».proof.Proof.EntryIdeal
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The body's accesses: each buffer whole -/

abbrev rA : Rect S128x128 := Rect.unit (s := S128x128) ![0, 0] S128x128.size inb_S128x128_S128x128_0_0
abbrev rB : Rect S8192x128 := Rect.unit (s := S8192x128) ![0, 0] S8192x128.size inb_S8192x128_S8192x128_0_0
abbrev rC : Rect S128x1 := Rect.unit (s := S128x1) ![0, 0] S128x1.size inb_S128x1_S128x1_0_0
abbrev rD : Rect S1x8192 := Rect.unit (s := S1x8192) ![0, 0] S1x8192.size inb_S1x8192_S1x8192_0_0

theorem zero2 : (![0, 0] : Fin 2 → Nat) = fun _ => 0 := by funext a; fin_cases a <;> rfl

/-! ## What the body leaves in each output buffer -/

/-- The first output buffer after the body: its one whole-buffer store, over the loaded inputs. -/
def out4 (i : grid0.Coords) (x0 : Vec F S128x128 .f32) (x1 : Vec F S8192x128 .f32) (x2 : Vec F S128x1 .i32) (x3 : Vec F S1x8192 .i32) : Vec F S128x1 .f32 :=
  View.canon [⟨rC, k0_pay3 (k0_pay7 i (View.ld x0 rA) (View.ld x1 rB) (View.ld x2 rC) (View.ld x3 rD)) (k0_pay8 i (View.ld x2 rC) (View.ld x3 rD))⟩]

/-- The second output buffer after the body. -/
def out5 (i : grid0.Coords) (x2 : Vec F S128x1 .i32) (x3 : Vec F S1x8192 .i32) : Vec F S128x1 .f32 :=
  View.canon [⟨rC, k0_pay4 (k0_pay8 i (View.ld x2 rC) (View.ld x3 rD))⟩]

/-- A whole-buffer store leaves its payload, a whole-buffer load reads the contents. -/
theorem out4_eq (i : grid0.Coords) (x0 : Vec F S128x128 .f32) (x1 : Vec F S8192x128 .f32) (x2 : Vec F S128x1 .i32) (x3 : Vec F S1x8192 .i32) :
    out4 i x0 x1 x2 x3 = k0_pay3 (k0_pay7 i x0 x1 x2 x3) (k0_pay8 i x2 x3) := by
  unfold out4
  rw [View.canon_unit_zero zero2]
  simp only [View.ld_unit_zero (S := S128x128) zero2, View.ld_unit_zero (S := S8192x128) zero2,
    View.ld_unit_zero (S := S128x1) zero2, View.ld_unit_zero (S := S1x8192) zero2]

theorem out5_eq (i : grid0.Coords) (x2 : Vec F S128x1 .i32) (x3 : Vec F S1x8192 .i32) :
    out5 i x2 x3 = k0_pay4 (k0_pay8 i x2 x3) := by
  unfold out5
  rw [View.canon_unit_zero zero2]
  simp only [View.ld_unit_zero (S := S128x1) zero2, View.ld_unit_zero (S := S1x8192) zero2]

/-- Each store covers its buffer. -/
theorem coverC (p0 : Vec F S128x1 .f32) (y : S128x1.Idx) :
    ∃ pc ∈ ([⟨rC, p0⟩] : List (View.Piece (Elt F) S128x1 .f32)), y ∈ pc.1.set :=
  ⟨_, List.mem_singleton_self _, View.mem_set_unit_zero zero2 inb_S128x1_S128x1_0_0 y⟩

/-! ## The body's triple -/

set_option maxHeartbeats 1000000 in
/-- The body on whole buffers, the inputs' at read contents and the outputs' at anything, runs to the continuation
    holding the inputs' as they were and each output's at the payload stored over the inputs'. -/
theorem sound_kernel (c : Dev nD) (E : Set ℕ) (i : grid0.Coords)
    (arg1 : Memref sig .tc .vmem S128x128 .f32) (harg1 : arg1.IsWhole) (arg2 : Memref sig .tc .vmem S8192x128 .f32) (harg2 : arg2.IsWhole)
    (arg3 : Memref sig .tc .vmem S128x1 .i32) (harg3 : arg3.IsWhole) (arg4 : Memref sig .tc .vmem S1x8192 .i32) (harg4 : arg4.IsWhole)
    (arg5 : Memref sig .tc .vmem S128x1 .f32) (harg5 : arg5.IsWhole) (arg6 : Memref sig .tc .vmem S128x1 .f32) (harg6 : arg6.IsWhole)
    (x0 : Vec F S128x128 .f32) (x1 : Vec F S8192x128 .f32) (x2 : Vec F S128x1 .i32) (x3 : Vec F S1x8192 .i32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (out4 i x0 x1 x2 x3) ∗ owns (c : Thread nD τ) arg6 fullShare (out5 i x2 x3)) -∗ K ⟨⟩))
      ⊢ wp frame (wpE (defs₀ (F := F)) Variants.none c none) E (cc0__contrastive_kernel i arg1 harg1 arg2 harg2 arg3 harg3 arg4 harg4 arg5 harg5 arg6 harg6) K := by
  simp only [cc0__contrastive_kernel_eq_skeleton]; unfold cc0__contrastive_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (coverC _)
  iexists _; isplitr
  swap; · iexact H5
  ipureintro
  exact View.read_writes_eq_canon _ _ _ (coverC _)

/-! ## What the body finds in each input buffer -/

/-- An input window's current staging buffer holds its block at every point, fetched there or not, for any proof
    data whose array is the region-entry contents and whose body leaves the block in place: where the window is
    not fetched its block index has not moved since the point before. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The pipeline's proof data -/

/-- The proof data of the pipeline on core `c`: the arrays as the region finds them; after the body at point `t`
    each input's buffer at its block and each output's at the payload stored over the input blocks; the scoped
    rest and the generator register untouched; nothing owed. The two windows on the embeddings' array hold half of
    it each, every other window all of its array. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => out4 (grid0.coords t) (iblk m c 0 t) (iblk m c 1 t) (iblk m c 2 t) (iblk m c 3 t)
    | ⟨5, _⟩ => out5 (grid0.coords t) (iblk m c 2 t) (iblk m c 3 t)
  Φ _ := Pipeline.ΦA spec0 c
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
  owed _ := 0

/-- The proof data's arrays are the region-entry contents. -/
theorem A_eq (c : Dev nD) (w : Fin cfg0.W) : (dats m 0 c).A w = V m c (Pipeline.arrRef spec0 w) := by
  dsimp only [dats]

/-- The shares, window by window. -/
theorem q0_0 (c : Dev nD) : (dats m 0 c).q 0 = fullShare.left := by dsimp only [dats]
theorem q0_1 (c : Dev nD) : (dats m 0 c).q 1 = fullShare.right := by dsimp only [dats]
theorem q0_2 (c : Dev nD) : (dats m 0 c).q 2 = fullShare := by dsimp only [dats]
theorem q0_3 (c : Dev nD) : (dats m 0 c).q 3 = fullShare := by dsimp only [dats]
theorem q0_4 (c : Dev nD) : (dats m 0 c).q 4 = fullShare := by dsimp only [dats]
theorem q0_5 (c : Dev nD) : (dats m 0 c).q 5 = fullShare := by dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t
    = out4 (grid0.coords t) (iblk m c 0 t) (iblk m c 1 t) (iblk m c 2 t) (iblk m c 3 t) := by dsimp only [dats]
theorem after0_5 (c : Dev nD) (t : Fin cfg0.N) : (dats m 0 c).after 5 t
    = out5 (grid0.coords t) (iblk m c 2 t) (iblk m c 3 t) := by dsimp only [dats]

/-- Each input's current staging buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The body at any point: the inputs' buffers hold their blocks, so the body's triple applies; the invariant and
    what the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel c Set.univ (grid0.coords t) _ _ _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Hand

end
-- ==== Proof.Blocks.lean ====
/-
  Each input window's block at a grid point, read at an index, as an entry of the launched arguments: the embeddings'
  row block at point t is rows 128 t … 128 t + 127 of the embeddings, the whole-array window is the embeddings, the
  label column's block is the labels of those rows and the label row's block is all the labels (the two label arrays
  being the labels reshaped before the region is entered).
-/
import proofs.«138464_j23570780520482_1_alg».proof.Proof.EntryIdeal
import Idealize.ShloMosaic.Lib.Pipeline.Value
import Idealize.ShloMosaic.Lib.ValueIdx
import Idealize.ShloMosaic.Lib.ValueLayout

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)

variable {F : FTy → Type} [FloatOps F] [Named F]
variable (m : (ℓ : Loc nD τ sig) → Buf (Elt F) ℓ)

/-- The block index of every window at grid point `t`: the row windows sit at block row `t`, the whole-array windows at block 0. -/
theorem index_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0 :=
  (by decide +kernel : ∀ t : Fin grid0.N, _)

/-- A row of a row block is a row of the array: `128 t + r < 8192` for `t < 64`, `r < 128`. -/
theorem row_lt (t : Fin cfg0.N) (r : Fin 128) : 128 * t.val + r.val < 8192 := by
  have := t.isLt; have : cfg0.N = 64 := N_0; omega

/-- The embeddings' row block at point `t` is rows `128 t … 128 t + 127` of the embeddings. -/
theorem iblk0_apply (c : Dev nD) (t : Fin cfg0.N) (r k : Fin 128) :
    (iblk m c 0 t : S128x128.Idx → Elt F .f32) (ix2 r k)
      = (m ((c : Thread nD τ).loc main_arg0) : S8192x128.Idx → Elt F .f32) (ix2 ⟨128 * t.val + r.val, row_lt t r⟩ k) := by
  obtain ⟨e0, e1, -⟩ := index_facts t
  unfold iblk
  rw [View.read_apply]
  show V m c main_arg0 _ = _
  rw [V_main_arg0]
  congr 1
  funext a
  apply Fin.ext
  match a with
  | ⟨0, _⟩ => show win0_0.index t (0 : Fin 2) * 128 + 1 * r.val = 128 * t.val + r.val; rw [e0]; omega
  | ⟨1, _⟩ => show win0_0.index t (1 : Fin 2) * 128 + 1 * k.val = k.val; rw [e1]; omega

/-- The second window is all of the embeddings at every point. -/
theorem iblk1_apply (c : Dev nD) (t : Fin cfg0.N) (j : Fin 8192) (k : Fin 128) :
    (iblk m c 1 t : S8192x128.Idx → Elt F .f32) (ix2 j k)
      = (m ((c : Thread nD τ).loc main_arg0) : S8192x128.Idx → Elt F .f32) (ix2 j k) := by
  obtain ⟨-, -, e0, e1, -⟩ := index_facts t
  unfold iblk
  rw [View.read_apply]
  show V m c main_arg0 _ = _
  rw [V_main_arg0]
  congr 1
  funext a
  apply Fin.ext
  match a with
  | ⟨0, _⟩ => show win0_1.index t (0 : Fin 2) * 8192 + 1 * j.val = j.val; rw [e0]; omega
  | ⟨1, _⟩ => show win0_1.index t (1 : Fin 2) * 128 + 1 * k.val = k.val; rw [e1]; omega

/-- The labels as a column, as the region finds them: the labels read in row-major order. -/
theorem V_main_v0_eq (c : Dev nD) :
    (V m c main_v0 : S8192x1.Idx → Elt F .i32)
      = shapeCast S8192x1 (m ((c : Thread nD τ).loc main_arg1) : S8192.Idx → Elt F .i32) shapeCasts_S8192_S8192x1 := by
  show StableHlo.after hostOps0 (fun b => m (c, b)) (Proc.devRef .tc main_v0) = _
  after_results
  rfl

/-- The labels as a row, as the region finds them. -/
theorem V_main_v1_eq (c : Dev nD) :
    (V m c main_v1 : S1x8192.Idx → Elt F .i32)
      = shapeCast S1x8192 (m ((c : Thread nD τ).loc main_arg1) : S8192.Idx → Elt F .i32) shapeCasts_S8192_S1x8192 := by
  show StableHlo.after hostOps0 (fun b => m (c, b)) (Proc.devRef .tc main_v1) = _
  after_results
  rfl

/-- The column of labels at a row is that row's label. -/
theorem V_main_v0_apply (c : Dev nD) (i : Fin 8192) :
    (V m c main_v0 : S8192x1.Idx → Elt F .i32) (ix2 i 0)
      = (m ((c : Thread nD τ).loc main_arg1) : S8192.Idx → Elt F .i32) (ix1 i) := by
  rw [V_main_v0_eq]
  refine shapeCast_apply _ _ _ _ ?_
  show (S8192.rowMajor (ix1 i)).val = (S8192x1.rowMajor (ix2 i 0)).val
  rw [Shape.rowMajor_val_two, Shape.rowMajor_val_one]
  show i.val = i.val * 1 + 0
  omega

/-- The row of labels at a column is that column's label. -/
theorem V_main_v1_apply (c : Dev nD) (j : Fin 8192) :
    (V m c main_v1 : S1x8192.Idx → Elt F .i32) (ix2 0 j)
      = (m ((c : Thread nD τ).loc main_arg1) : S8192.Idx → Elt F .i32) (ix1 j) := by
  rw [V_main_v1_eq]
  refine shapeCast_apply _ _ _ _ ?_
  show (S8192.rowMajor (ix1 j)).val = (S1x8192.rowMajor (ix2 0 j)).val
  rw [Shape.rowMajor_val_two, Shape.rowMajor_val_one]
  show j.val = 0 * 8192 + j.val
  omega

/-- The label column's block at point `t` is the labels of rows `128 t … 128 t + 127`. -/
theorem iblk2_apply (c : Dev nD) (t : Fin cfg0.N) (r : Fin 128) :
    (iblk m c 2 t : S128x1.Idx → Elt F .i32) (ix2 r 0)
      = (m ((c : Thread nD τ).loc main_arg1) : S8192.Idx → Elt F .i32) (ix1 ⟨128 * t.val + r.val, row_lt t r⟩) := by
  obtain ⟨-, -, -, -, e0, e1, -⟩ := index_facts t
  rw [← V_main_v0_apply m c]
  unfold iblk
  rw [View.read_apply]
  show V m c main_v0 _ = _
  congr 1
  funext a
  apply Fin.ext
  match a with
  | ⟨0, _⟩ => show win0_2.index t (0 : Fin 2) * 128 + 1 * r.val = 128 * t.val + r.val; rw [e0]; omega
  | ⟨1, _⟩ => show win0_2.index t (1 : Fin 2) * 1 + 1 * 0 = 0; rw [e1]

/-- The label row's block is the whole row of labels at every point. -/
theorem iblk3_apply (c : Dev nD) (t : Fin cfg0.N) (j : Fin 8192) :
    (iblk m c 3 t : S1x8192.Idx → Elt F .i32) (ix2 0 j)
      = (m ((c : Thread nD τ).loc main_arg1) : S8192.Idx → Elt F .i32) (ix1 j) := by
  obtain ⟨-, -, -, -, -, -, e0, e1, -⟩ := index_facts t
  rw [← V_main_v1_apply m c]
  unfold iblk
  rw [View.read_apply]
  show V m c main_v1 _ = _
  congr 1
  funext a
  apply Fin.ext
  match a with
  | ⟨0, _⟩ => show win0_3.index t (0 : Fin 2) * 1 + 1 * 0 = 0; rw [e0]
  | ⟨1, _⟩ => show win0_3.index t (1 : Fin 2) * 8192 + 1 * j.val = j.val; rw [e1]; omega

end Cert.KernelIdeal.Hand

end
-- ==== Proof.Cover.lean ====
/-
  From blocks to arrays: each of the two result arrays of the region, after the region, is one whole-array function G,
  provided every grid point leaves its 128 rows of G in the window's staging buffer. Every point writes its [128,1]
  block back, point t's block is rows 128 t … 128 t + 127, and the 64 blocks tile the [8192,1] array (row R lies in
  the block of point R / 128).
-/
import proofs.«138464_j23570780520482_1_alg».proof.Proof.Blocks
import Idealize.ShloMosaic.Lib.Pipeline.Value
import Idealize.ShloMosaic.Lib.ValueIdx
import Idealize.ShloMosaic.Lib.ValueLayout

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)

variable {F : FTy → Type} [FloatOps F] [Named F]
variable (m : (ℓ : Loc nD τ sig) → Buf (Elt F) ℓ)

variable (c : Dev nD) (dat : Pipeline.Dat τ (Elt F) Unit ℕ (UR sig nD τ) ℕ cfg0 c)

/-- An index of the first result array lies in point `t`'s block iff each coordinate lies in the block's range on its axis. -/
theorem mem_blk4 (t : Fin cfg0.N) (i : S8192x1.Idx) :
    i ∈ ((cfg0.win 4).blk t).view.set ↔ ∀ a : Fin 2, win0_4.index t a * S128x1.size a ≤ (i a).val ∧ (i a).val < win0_4.index t a * S128x1.size a + S128x1.size a := by
  show i ∈ ((View.whole main_v2_0).slice (win0_4.rect t)).set ↔ _
  rw [View.set_slice_whole, Rect.mem_set_unit]
  exact Iff.rfl

/-- The same for the second result array. -/
theorem mem_blk5 (t : Fin cfg0.N) (i : S8192x1.Idx) :
    i ∈ ((cfg0.win 5).blk t).view.set ↔ ∀ a : Fin 2, win0_5.index t a * S128x1.size a ≤ (i a).val ∧ (i a).val < win0_5.index t a * S128x1.size a + S128x1.size a := by
  show i ∈ ((View.whole main_v2_1).slice (win0_5.rect t)).set ↔ _
  rw [View.set_slice_whole, Rect.mem_set_unit]
  exact Iff.rfl

/-- Row `R` of a result array lies in the block of point `R / 128`. -/
theorem cover4 (i : S8192x1.Idx) : ∃ t : Fin cfg0.N, (cfg0.win 4).flush t = true ∧ i ∈ ((cfg0.win 4).blk t).view.set := by
  have hi0 : (i 0).val < 8192 := (i 0).isLt
  have hi1 : (i 1).val < 1 := (i 1).isLt
  have hN : cfg0.N = 64 := N_0
  let t : Fin cfg0.N := ⟨(i 0).val / 128, by omega⟩
  obtain ⟨-, -, -, -, -, -, -, -, e0, e1, -⟩ := index_facts t
  refine ⟨t, flush0_4 t, ?_⟩
  rw [mem_blk4]
  intro a
  match a with
  | ⟨0, _⟩ => show win0_4.index t (0 : Fin 2) * 128 ≤ (i 0).val ∧ (i 0).val < win0_4.index t (0 : Fin 2) * 128 + 128; rw [e0]; show (i 0).val / 128 * 128 ≤ (i 0).val ∧ (i 0).val < (i 0).val / 128 * 128 + 128; omega
  | ⟨1, _⟩ => show win0_4.index t (1 : Fin 2) * 1 ≤ (i 1).val ∧ (i 1).val < win0_4.index t (1 : Fin 2) * 1 + 1; rw [e1]; omega

theorem cover5 (i : S8192x1.Idx) : ∃ t : Fin cfg0.N, (cfg0.win 5).flush t = true ∧ i ∈ ((cfg0.win 5).blk t).view.set := by
  have hi0 : (i 0).val < 8192 := (i 0).isLt
  have hi1 : (i 1).val < 1 := (i 1).isLt
  have hN : cfg0.N = 64 := N_0
  let t : Fin cfg0.N := ⟨(i 0).val / 128, by omega⟩
  obtain ⟨-, -, -, -, -, -, -, -, -, -, e0, e1⟩ := index_facts t
  refine ⟨t, flush0_5 t, ?_⟩
  rw [mem_blk5]
  intro a
  match a with
  | ⟨0, _⟩ => show win0_5.index t (0 : Fin 2) * 128 ≤ (i 0).val ∧ (i 0).val < win0_5.index t (0 : Fin 2) * 128 + 128; rw [e0]; show (i 0).val / 128 * 128 ≤ (i 0).val ∧ (i 0).val < (i 0).val / 128 * 128 + 128; omega
  | ⟨1, _⟩ => show win0_5.index t (1 : Fin 2) * 1 ≤ (i 1).val ∧ (i 1).val < win0_5.index t (1 : Fin 2) * 1 + 1; rw [e1]; omega

/-- What point `t` writes back to the first result array is block `t` of `G`, when the body leaves rows
    `128 t … 128 t + 127` of `G` in the staging buffer. -/
theorem flushed4_eq (G : S8192x1.Idx → Elt F .f32)
    (hafter : ∀ (t : Fin cfg0.N) (r : Fin 128), (dat.after 4 t : S128x1.Idx → Elt F .f32) (ix2 r 0) = G (ix2 ⟨128 * t.val + r.val, row_lt t r⟩ 0))
    (t : Fin cfg0.N) : dat.flushed 4 t = ((cfg0.win 4).blk t).view.read (Elt F) G := by
  obtain ⟨-, -, -, -, -, -, -, -, e0, e1, -⟩ := index_facts t
  funext j
  obtain ⟨r, q, rfl⟩ : ∃ (r : Fin 128) (q : Fin 1), j = ix2 r q := ⟨j 0, j 1, eq_ix2 j⟩
  obtain rfl : q = 0 := Subsingleton.elim _ _
  rw [View.read_apply]
  show (dat.after 4 t : S128x1.Idx → Elt F .f32) (ix2 r 0) = G (((cfg0.win 4).blk t).view.emb (ix2 r 0))
  rw [hafter t r]
  congr 1
  funext a
  apply Fin.ext
  match a with
  | ⟨0, _⟩ => show 128 * t.val + r.val = win0_4.index t (0 : Fin 2) * 128 + 1 * r.val; rw [e0]; omega
  | ⟨1, _⟩ => show 0 = win0_4.index t (1 : Fin 2) * 1 + 1 * 0; rw [e1]

theorem flushed5_eq (G : S8192x1.Idx → Elt F .f32)
    (hafter : ∀ (t : Fin cfg0.N) (r : Fin 128), (dat.after 5 t : S128x1.Idx → Elt F .f32) (ix2 r 0) = G (ix2 ⟨128 * t.val + r.val, row_lt t r⟩ 0))
    (t : Fin cfg0.N) : dat.flushed 5 t = ((cfg0.win 5).blk t).view.read (Elt F) G := by
  obtain ⟨-, -, -, -, -, -, -, -, -, -, e0, e1⟩ := index_facts t
  funext j
  obtain ⟨r, q, rfl⟩ : ∃ (r : Fin 128) (q : Fin 1), j = ix2 r q := ⟨j 0, j 1, eq_ix2 j⟩
  obtain rfl : q = 0 := Subsingleton.elim _ _
  rw [View.read_apply]
  show (dat.after 5 t : S128x1.Idx → Elt F .f32) (ix2 r 0) = G (((cfg0.win 5).blk t).view.emb (ix2 r 0))
  rw [hafter t r]
  congr 1
  funext a
  apply Fin.ext
  match a with
  | ⟨0, _⟩ => show 128 * t.val + r.val = win0_5.index t (0 : Fin 2) * 128 + 1 * r.val; rw [e0]; omega
  | ⟨1, _⟩ => show 0 = win0_5.index t (1 : Fin 2) * 1 + 1 * 0; rw [e1]

/-- The first result array after the region: `G`, when every point leaves its rows of `G` in the staging buffer — every
    point writes its block back and the 64 blocks tile the array. -/
theorem arrAt4_eq (G : S8192x1.Idx → Elt F .f32)
    (hafter : ∀ (t : Fin cfg0.N) (r : Fin 128), (dat.after 4 t : S128x1.Idx → Elt F .f32) (ix2 r 0) = G (ix2 ⟨128 * t.val + r.val, row_lt t r⟩ 0)) :
    dat.arrAt 4 cfg0.N = G :=
  dat.arrAt_eq_of_cover 4 G (fun t _ => flushed4_eq c dat G hafter t) cover4

/-- The second result array after the region, likewise. -/
theorem arrAt5_eq (G : S8192x1.Idx → Elt F .f32)
    (hafter : ∀ (t : Fin cfg0.N) (r : Fin 128), (dat.after 5 t : S128x1.Idx → Elt F .f32) (ix2 r 0) = G (ix2 ⟨128 * t.val + r.val, row_lt t r⟩ 0)) :
    dat.arrAt 5 cfg0.N = G :=
  dat.arrAt_eq_of_cover 5 G (fun t _ => flushed5_eq c dat G hafter t) cover5

end Cert.KernelIdeal.Hand

end
-- ==== Proof.Spec.lean ====
/-
  The contrastive loss as ONE function of the two argument arrays, index by index over the extended reals.

  `e` is the matrix of embeddings (8192 rows of 128), `l` the row labels. Row `i`'s logits are the Gram row
  `⟨e_i, e_j⟩ / T` with the diagonal entry replaced by the finite fill; a row's log-softmax subtracts the row maximum
  and the logarithm of the sum of exponentials; the positives of row `i` are the other rows with the same label; a
  row contributes the mean of its positives' log-probabilities when it has a positive; the loss is minus the sum of the
  rows' contributions over the number of rows that have one (at least one).
-/
import Idealize.ShloMosaic.PureOps.Ideal
import Idealize.ShloMosaic.Lib.ValueIdx

noncomputable section

namespace Cert.Spec

open Idealize.ShloMosaic Idealize.ShloMosaic.ValueIdx

/-- The embeddings' index type and the labels'. -/
abbrev EIdx := (⟨2, ![8192, 128]⟩ : Shape).Idx
abbrev LIdx := (⟨1, ![8192]⟩ : Shape).Idx

variable (e : EIdx → EReal) (l : LIdx → BitVec 32)

/-- The three float words both programs carry: minus infinity (the maximum's start), the finite diagonal fill, the temperature. -/
def negInf : EReal := Ideal.ofBits .f32 0xFF800000#32
def fill : EReal := Ideal.ofBits .f32 0xCE6E6B28#32
def temp : EReal := Ideal.ofBits .f32 0x3D8F5C29#32

/-- The Gram entry of rows `i` and `j`. -/
def gram (i j : Fin 8192) : EReal := ∑ k : Fin 128, e (ix2 i k) * e (ix2 j k)

/-- The logit of `(i, j)`: the Gram entry over the temperature, the diagonal at the fill. -/
def sim (i j : Fin 8192) : EReal := if i = j then fill else Ideal.div (gram e i j) temp

/-- Row `i`'s maximum logit. -/
def rowMax (i : Fin 8192) : EReal := (Finset.univ : Finset (Fin 8192)).fold max negInf (fun j => sim e i j)

/-- Row `i`'s sum of exponentials of the shifted logits. -/
def denom (i : Fin 8192) : EReal := ∑ j : Fin 8192, Ideal.exp (sim e i j - rowMax e i)

/-- The log-probability of `(i, j)`. -/
def logp (i j : Fin 8192) : EReal := sim e i j - rowMax e i - Ideal.log (denom e i)

/-- `j` is a positive of `i`: the same label, another row. -/
def pos (i j : Fin 8192) : Prop := l (ix1 j) = l (ix1 i) ∧ i ≠ j

instance (i j : Fin 8192) : Decidable (pos l i j) := by unfold pos; infer_instance

/-- The sum of row `i`'s positives' log-probabilities, and their number. -/
def posSum (i : Fin 8192) : EReal := ∑ j : Fin 8192, if pos l i j then logp e i j else 0
def posCount (i : Fin 8192) : ℕ := (Finset.univ.filter fun j : Fin 8192 => pos l i j).card

/-- Row `i`'s contribution: the mean over its positives, zero when it has none. -/
def rowMean (i : Fin 8192) : EReal :=
  if 0 < posCount l i then Ideal.div (posSum e l i) ((max (posCount l i) 1 : ℕ) : EReal) else 0

/-- Whether row `i` has a positive, as the number one or zero. -/
def hasPos (i : Fin 8192) : EReal := if 0 < posCount l i then 1 else 0

/-- The number of rows with a positive. -/
def nHas : ℕ := (Finset.univ.filter fun i : Fin 8192 => 0 < posCount l i).card

/-- The loss. -/
def loss : EReal := Ideal.div (-(∑ i : Fin 8192, rowMean e l i)) ((max (nHas l) 1 : ℕ) : EReal)

end Cert.Spec

end
-- ==== Proof.PayMask.lean ====
/-
  The kernel's integer masks read at one entry of the tile. Row `r` of grid point `t`'s tile is the global row
  `128 t + r`. The diagonal mask compares the row's global number with the column's; the positives' mask is "the two
  labels are equal and the entry is off the diagonal"; widened and converted it is the number one or zero.
-/
import proofs.«138464_j23570780520482_1_alg».proof.Proof.Gen.KernelIdeal.Skeleton
import proofs.«138464_j23570780520482_1_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.PayValue

open Cert.KernelIdeal Cert.KernelIdeal.Gen Idealize.ShloMosaic Idealize.ShloMosaic.ValueIdx

variable {α : Type}

/-- A column broadcast to the tile reads the column at the row. -/
theorem bcast_col (x : S128x1.Idx → α) (r : Fin 128) (j : Fin 8192) :
    broadcastTo S128x8192 x broadcasts_S128x1_S128x8192 (ix2 r j) = x (ix2 r 0) := by
  refine broadcastTo_apply x _ _ _ ?_
  intro a
  match a with
  | ⟨0, _⟩ => rfl
  | ⟨1, _⟩ => rfl

/-- A row broadcast to the tile reads the row at the column. -/
theorem bcast_row (x : S1x8192.Idx → α) (r : Fin 128) (j : Fin 8192) :
    broadcastTo S128x8192 x broadcasts_S1x8192_S128x8192 (ix2 r j) = x (ix2 0 j) := by
  refine broadcastTo_apply x _ _ _ ?_
  intro a
  match a with
  | ⟨0, _⟩ => rfl
  | ⟨1, _⟩ => rfl

/-- Below 2^32 the word `r + t · 128` equals the word `j` exactly when the numbers do. -/
theorem word_eq_iff (t r j : Nat) (ht : t < 64) (hr : r < 128) (hj : j < 8192) :
    (BitVec.ofNat 32 r + BitVec.ofNat 32 t * 128#32 = BitVec.ofNat 32 j) ↔ 128 * t + r = j := by
  rw [← BitVec.toNat_inj]
  simp only [BitVec.toNat_add, BitVec.toNat_mul, BitVec.toNat_ofNat]
  omega

/-- The diagonal mask: the tile's row is the column. -/
theorem pay5_apply (i : grid0.Coords) (t : Fin 64) (hi : (i 0).val = t.val) (r : Fin 128) (j : Fin 8192) :
    k0_pay5 i (ix2 r j) = if (⟨128 * t.val + r.val, by omega⟩ : Fin 8192) = j then 1#1 else 0#1 := by
  unfold k0_pay5
  simp only [cmpi, bcast_col, bcast_row, addi, broadcast_apply]
  rw [iota_single_apply .tc S128x1 32 0 iota_S128x1_d0_w32 (ix2 r 0),
    iota_single_apply .tc S1x8192 32 1 iota_S1x8192_d1_w32 (ix2 0 j), hi]
  show IntOp.cmpi .eq (IntOp.addi (BitVec.ofNat 32 r.val) (Scalar.muli (BitVec.ofNat 32 t.val) 128#32)) (BitVec.ofNat 32 j.val) = _
  simp only [IntOp.cmpi, IntOp.addi, Scalar.muli, IntOp.muli]
  by_cases h : (⟨128 * t.val + r.val, by omega⟩ : Fin 8192) = j
  · rw [if_pos h]
    have : BitVec.ofNat 32 r.val + BitVec.ofNat 32 t.val * 128#32 = BitVec.ofNat 32 j.val :=
      (word_eq_iff _ _ _ t.isLt r.isLt j.isLt).mpr (by rw [← h])
    rw [this]; simp
  · rw [if_neg h]
    have : ¬ BitVec.ofNat 32 r.val + BitVec.ofNat 32 t.val * 128#32 = BitVec.ofNat 32 j.val := fun e =>
      h (Fin.ext ((word_eq_iff _ _ _ t.isLt r.isLt j.isLt).mp e))
    have hb : (BitVec.ofNat 32 r.val + BitVec.ofNat 32 t.val * 128#32 == BitVec.ofNat 32 j.val) = false := by
      rw [beq_eq_false_iff_ne]; exact this
    rw [hb]; rfl

section
variable {F : FTy → Type} [FloatOps F] [Named F]

/-- The positives' mask: the row's label equals the column's and the entry is off the diagonal. -/
theorem pay6_apply (i : grid0.Coords) (t : Fin 64) (hi : (i 0).val = t.val)
    (x2 : Vec F S128x1 .i32) (x3 : Vec F S1x8192 .i32) (l : Cert.Spec.LIdx → BitVec 32)
    (h2 : ∀ r : Fin 128, x2 (ix2 r 0) = l (ix1 ⟨128 * t.val + r.val, by omega⟩))
    (h3 : ∀ j : Fin 8192, x3 (ix2 0 j) = l (ix1 j)) (r : Fin 128) (j : Fin 8192) :
    k0_pay6 (F := F) i x2 x3 (ix2 r j)
      = if Cert.Spec.pos l ⟨128 * t.val + r.val, by omega⟩ j then 1#1 else 0#1 := by
  unfold k0_pay6
  simp only [andi, xori, cmpi, bcast_col, bcast_row, shapeCast_self, constantI, pay5_apply i t hi, h2, h3]
  simp only [IntOp.andi, IntOp.xori, IntOp.cmpi]
  by_cases hd : (⟨128 * t.val + r.val, by omega⟩ : Fin 8192) = j
  · rw [if_pos hd, if_neg (fun h : Cert.Spec.pos l _ j => h.2 hd)]
    generalize BitVec.ofBool _ = b
    decide +revert
  · rw [if_neg hd]
    by_cases hl : l (ix1 j) = l (ix1 ⟨128 * t.val + r.val, by omega⟩)
    · rw [if_pos (show Cert.Spec.pos l _ j from ⟨hl, hd⟩), hl]
      simp
    · rw [if_neg (fun h : Cert.Spec.pos l _ j => hl h.1)]
      have hb : (l (ix1 ⟨128 * t.val + r.val, by omega⟩) == l (ix1 j)) = false := by
        rw [beq_eq_false_iff_ne]; exact fun e => hl e.symm
      rw [hb]; rfl
end

/-- The mask as a float: one at a positive, zero elsewhere. -/
theorem pay8_apply (i : grid0.Coords) (t : Fin 64) (hi : (i 0).val = t.val)
    (x2 : Vec Ideal S128x1 .i32) (x3 : Vec Ideal S1x8192 .i32) (l : Cert.Spec.LIdx → BitVec 32)
    (h2 : ∀ r : Fin 128, x2 (ix2 r 0) = l (ix1 ⟨128 * t.val + r.val, by omega⟩))
    (h3 : ∀ j : Fin 8192, x3 (ix2 0 j) = l (ix1 j)) (r : Fin 128) (j : Fin 8192) :
    k0_pay8 (F := Ideal) i x2 x3 (ix2 r j)
      = if Cert.Spec.pos l ⟨128 * t.val + r.val, by omega⟩ j then (1 : EReal) else 0 := by
  unfold k0_pay8
  rw [sitofp_apply, extui_apply, pay6_apply i t hi x2 x3 l h2 h3 r j]
  by_cases hp : Cert.Spec.pos l ⟨128 * t.val + r.val, by omega⟩ j
  · rw [if_pos hp, if_pos hp]
    show (((BitVec.setWidth 32 1#1).toInt : ℝ) : EReal) = 1
    have : (BitVec.setWidth 32 1#1).toInt = 1 := by decide
    rw [this]; simp
  · rw [if_neg hp, if_neg hp]
    show (((BitVec.setWidth 32 0#1).toInt : ℝ) : EReal) = 0
    have : (BitVec.setWidth 32 0#1).toInt = 0 := by decide
    rw [this]; simp

end Cert.KernelIdeal.PayValue
end
-- ==== Proof.PayCount.lean ====
/-
  The kernel's per-row counts read at one row of the tile. The lane sum of the float mask over the 8192 columns is the
  number of the row's positives (a sum of ones and zeros is a cardinality); comparing it with zero gives the has-positive
  bit, which converts to the flag one or zero; the final select divides the row's sum by the count, at least one, where
  the row has a positive and is zero elsewhere.
-/
import proofs.«138464_j23570780520482_1_alg».proof.Proof.Gen.KernelIdeal.Skeleton
import proofs.«138464_j23570780520482_1_alg».proof.Proof.Spec
import proofs.«138464_j23570780520482_1_alg».proof.Proof.PayMask
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.PayValue

open Cert.KernelIdeal Cert.KernelIdeal.Gen Idealize.ShloMosaic Idealize.ShloMosaic.ValueIdx

/-- The keep-dims view of a lane-reduced vector reads the vector at the row. -/
theorem cast_col {α : Type} (x : S128.Idx → α) (r : Fin 128) :
    shapeCast S128x1 x shapeCasts_S128_S128x1 (ix2 r 0) = x (ix1 r) := by
  refine shapeCast_apply x _ _ _ ?_
  rw [Shape.rowMajor_val_one, Shape.rowMajor_val_two]
  show r.val = r.val * 1 + 0
  omega

/-- A lane sum over the tile at row `r` is the sum over the columns. -/
theorem lane_sum (v : FVec Ideal S128x8192 .f32) (hφ : FKind.Formats .f32)
    (hacc : (0x00000000#32 : BitVec 32) = 0x00000000#32) (r : Fin 128) :
    multiReduction (F := Ideal) .add [1] S128 v 0x00000000#32 reduces_S128x8192_S128 hφ hacc (ix1 r)
      = ∑ j : Fin 8192, v (ix2 r j) := by
  refine (Ideal.multiReduction_add_single v 0x00000000#32 reduces_S128x8192_S128 hφ hacc (ix1 r)).trans ?_
  refine Finset.sum_congr rfl fun j _ => congrArg v ?_
  funext a
  match a with
  | ⟨0, _⟩ => rfl
  | ⟨1, _⟩ => rfl

/-- A sum of ones and zeros over a finite type is the number of ones. -/
theorem sum_indicator {ι : Type} [Fintype ι] [DecidableEq ι] (p : ι → Prop) [DecidablePred p] :
    (∑ j : ι, if p j then (1 : EReal) else 0) = ((Finset.univ.filter p).card : EReal) := by
  have h : ∀ s : Finset ι, (∑ j ∈ s, if p j then (1 : EReal) else 0) = ((s.filter p).card : EReal) := by
    intro s
    induction s using Finset.induction_on with
    | empty => simp
    | insert a s ha ih =>
      rw [Finset.sum_insert ha, ih, Finset.filter_insert]
      by_cases hp : p a
      · rw [if_pos hp, if_pos hp, Finset.card_insert_of_notMem (fun h => ha (Finset.mem_filter.mp h).1)]
        push_cast
        rw [add_comm]
      · rw [if_neg hp, if_neg hp, zero_add]
  exact h Finset.univ

/-- The row's lane sum of the float mask is the number of the row's positives. -/
theorem pay1_apply (i : grid0.Coords) (t : Fin 64) (hi : (i 0).val = t.val)
    (x2 : Vec Ideal S128x1 .i32) (x3 : Vec Ideal S1x8192 .i32) (l : Cert.Spec.LIdx → BitVec 32)
    (h2 : ∀ r : Fin 128, x2 (ix2 r 0) = l (ix1 ⟨128 * t.val + r.val, by omega⟩))
    (h3 : ∀ j : Fin 8192, x3 (ix2 0 j) = l (ix1 j)) (r : Fin 128) :
    k0_pay1 (F := Ideal) (k0_pay8 i x2 x3) (ix2 r 0)
      = ((Cert.Spec.posCount l ⟨128 * t.val + r.val, by omega⟩ : ℕ) : EReal) := by
  unfold k0_pay1
  rw [cast_col, lane_sum]
  simp only [pay8_apply i t hi x2 x3 l h2 h3 r]
  rw [sum_indicator]
  rfl

/-- A natural number is positive exactly when its cast to the extended reals is. -/
theorem natCast_pos_iff (n : ℕ) : (0 : EReal) < (n : EReal) ↔ 0 < n := by
  rw [← Nat.cast_zero (R := EReal)]; exact EReal.natCast_lt_iff

/-- The f32 word of one denotes one. -/
theorem ofBits_one_f32 : Ideal.ofBits .f32 0x3F800000#32 = 1 := IdealRules.sign_bit.ideal_onePat .f32

/-- The maximum of a cast natural number and one is the cast of the maximum. -/
theorem max_natCast_one (n : ℕ) : max (n : EReal) 1 = ((max n 1 : ℕ) : EReal) := by
  have hm : Monotone (Nat.cast : ℕ → EReal) := fun a b h => EReal.natCast_le_iff.mpr h
  rw [hm.map_max, Nat.cast_one]

/-- The has-positive bit: the count exceeds zero. -/
theorem pay2_apply (i : grid0.Coords) (t : Fin 64) (hi : (i 0).val = t.val)
    (x2 : Vec Ideal S128x1 .i32) (x3 : Vec Ideal S1x8192 .i32) (l : Cert.Spec.LIdx → BitVec 32)
    (h2 : ∀ r : Fin 128, x2 (ix2 r 0) = l (ix1 ⟨128 * t.val + r.val, by omega⟩))
    (h3 : ∀ j : Fin 8192, x3 (ix2 0 j) = l (ix1 j)) (r : Fin 128) :
    k0_pay2 (F := Ideal) (k0_pay8 i x2 x3) (ix2 r 0)
      = if 0 < Cert.Spec.posCount l ⟨128 * t.val + r.val, by omega⟩ then 1#1 else 0#1 := by
  unfold k0_pay2
  rw [cmpf_apply, pay1_apply i t hi x2 x3 l h2 h3 r, broadcast_apply]
  show Ideal.cmp .ogt _ (Ideal.ofBits .f32 0x00000000#32) = _
  rw [Ideal.ofBits_zero_f32]
  simp only [Ideal.cmp, natCast_pos_iff]
  by_cases h : 0 < Cert.Spec.posCount l ⟨128 * t.val + r.val, by omega⟩
  · rw [if_pos h]; simp [h]
  · rw [if_neg h]; simp [h]

/-- The has-positive flag as a float. -/
theorem pay4_apply (i : grid0.Coords) (t : Fin 64) (hi : (i 0).val = t.val)
    (x2 : Vec Ideal S128x1 .i32) (x3 : Vec Ideal S1x8192 .i32) (l : Cert.Spec.LIdx → BitVec 32)
    (h2 : ∀ r : Fin 128, x2 (ix2 r 0) = l (ix1 ⟨128 * t.val + r.val, by omega⟩))
    (h3 : ∀ j : Fin 8192, x3 (ix2 0 j) = l (ix1 j)) (r : Fin 128) :
    k0_pay4 (F := Ideal) (k0_pay8 i x2 x3) (ix2 r 0)
      = Cert.Spec.hasPos l ⟨128 * t.val + r.val, by omega⟩ := by
  unfold k0_pay4 Cert.Spec.hasPos
  rw [sitofp_apply, extui_apply, pay2_apply i t hi x2 x3 l h2 h3 r]
  by_cases h : 0 < Cert.Spec.posCount l ⟨128 * t.val + r.val, by omega⟩
  · rw [if_pos h, if_pos h]
    show (((BitVec.setWidth 32 1#1).toInt : ℝ) : EReal) = 1
    have : (BitVec.setWidth 32 1#1).toInt = 1 := by decide
    rw [this]; simp
  · rw [if_neg h, if_neg h]
    show (((BitVec.setWidth 32 0#1).toInt : ℝ) : EReal) = 0
    have : (BitVec.setWidth 32 0#1).toInt = 0 := by decide
    rw [this]; simp

/-- The row's final select: the quotient by the count (at least one) where the row has a positive, zero elsewhere. -/
theorem pay3_apply (i : grid0.Coords) (t : Fin 64) (hi : (i 0).val = t.val)
    (x2 : Vec Ideal S128x1 .i32) (x3 : Vec Ideal S1x8192 .i32) (l : Cert.Spec.LIdx → BitVec 32)
    (h2 : ∀ r : Fin 128, x2 (ix2 r 0) = l (ix1 ⟨128 * t.val + r.val, by omega⟩))
    (h3 : ∀ j : Fin 8192, x3 (ix2 0 j) = l (ix1 j)) (r : Fin 128)
    (v39 : FVec Ideal S128x1 .f32) (S : EReal) (hS : v39 (ix2 r 0) = S) :
    k0_pay3 (F := Ideal) v39 (k0_pay8 i x2 x3) (ix2 r 0)
      = if 0 < Cert.Spec.posCount l ⟨128 * t.val + r.val, by omega⟩
        then Ideal.div S ((max (Cert.Spec.posCount l ⟨128 * t.val + r.val, by omega⟩) 1 : ℕ) : EReal) else 0 := by
  unfold k0_pay3
  rw [select_apply, pay2_apply i t hi x2 x3 l h2 h3 r, divf_apply, maximumf_apply,
    pay1_apply i t hi x2 x3 l h2 h3 r, hS, broadcast_apply, broadcast_apply]
  show Scalar.select _ (Ideal.div S (max _ (Ideal.ofBits .f32 0x3F800000#32))) (Ideal.ofBits .f32 0x00000000#32) = _
  rw [ofBits_one_f32, Ideal.ofBits_zero_f32, max_natCast_one]
  by_cases h : 0 < Cert.Spec.posCount l ⟨128 * t.val + r.val, by omega⟩
  · rw [if_pos h, if_pos h, select_one]
  · rw [if_neg h, if_neg h, select_zero]

end Cert.KernelIdeal.PayValue
end
-- ==== Proof.PaySim.lean ====
/-
  The kernel's logits at the ideal instance. The tile's rows times all rows, contracted over the 128 features,
  times the named reciprocal of the temperature, with the diagonal entry replaced by the finite fill, is the
  specification's logit `sim` of the tile row's global row: the product with the reciprocal of a nonzero real is
  the quotient by it on every extended real.
-/
import proofs.«138464_j23570780520482_1_alg».proof.Proof.Gen.KernelIdeal.Skeleton
import proofs.«138464_j23570780520482_1_alg».proof.Proof.Spec
import Idealize.ShloMosaic.Lib.ValueIdx
import Idealize.ShloMosaic.PureOps.Ideal.Laws
import Idealize.ShloMosaic.PureOps.IdealRules

noncomputable section

namespace Cert.KernelIdeal.PayValue

open Cert.KernelIdeal Cert.KernelIdeal.Gen Idealize.ShloMosaic Idealize.ShloMosaic.ValueIdx

/-! ## The two constants -/

/-- The temperature's pattern denotes the rational 9395241 / 2^27. -/
theorem temp_eq : Cert.Spec.temp = ((9395241 / 134217728 : ℝ) : EReal) := by
  unfold Cert.Spec.temp
  simp [Ideal.ofBits, Ideal.ieee, -EReal.coe_mul]; norm_num

/-- The kernel's named reciprocal denotes the rational 2^27 / 9395241, by the certificate's table. -/
theorem inv_temp : Named.named (F := Ideal) κ "inv_temperature" (φ := .f32) 0x41649249#32
    = ((134217728 / 9395241 : ℝ) : EReal) :=
  IdealRules.named_const.ideal_named_scalar _ _ _ _ rfl

/-- The product with the named reciprocal is the quotient by the temperature, on every extended real. -/
theorem mul_inv_temp (x : EReal) : x * ((134217728 / 9395241 : ℝ) : EReal) = Ideal.div x Cert.Spec.temp := by
  rw [temp_eq, Ideal.div_coe (by norm_num : (9395241 / 134217728 : ℝ) ≠ 0)]
  congr 2
  norm_num

/-! ## The product of the tile's rows with all rows, read at an index -/

theorem lhs_mm_0 (j : S128x8192.Idx) (q : dot_S128x128_S8192x128_S128x8192_1_1_0_0_n_n.contr.Idx) :
    (dot_S128x128_S8192x128_S128x8192_1_1_0_0_n_n.lhsIdx j q 0).val = (j 0).val := by
  unfold DotDims.lhsIdx
  rw [dif_neg (show ¬(0 : Fin S128x128.rank) ∈ dot_S128x128_S8192x128_S128x8192_1_1_0_0_n_n.lhsBatch by decide), dif_pos (show (0 : Fin S128x128.rank) ∈ dot_S128x128_S8192x128_S128x8192_1_1_0_0_n_n.lhsNonContracting by decide)]
  rfl
theorem lhs_mm_1 (j : S128x8192.Idx) (q : dot_S128x128_S8192x128_S128x8192_1_1_0_0_n_n.contr.Idx) :
    (dot_S128x128_S8192x128_S128x8192_1_1_0_0_n_n.lhsIdx j q 1).val = (q ⟨0, by decide⟩).val :=
  dot_S128x128_S8192x128_S128x8192_1_1_0_0_n_n.lhsIdx_val_of_single rfl j q
theorem rhs_mm_0 (j : S128x8192.Idx) (q : dot_S128x128_S8192x128_S128x8192_1_1_0_0_n_n.contr.Idx) :
    (dot_S128x128_S8192x128_S128x8192_1_1_0_0_n_n.rhsIdx j q 0).val = (j 1).val := by
  unfold DotDims.rhsIdx
  rw [dif_neg (show ¬(0 : Fin S8192x128.rank) ∈ dot_S128x128_S8192x128_S128x8192_1_1_0_0_n_n.rhsBatch by decide), dif_pos (show (0 : Fin S8192x128.rank) ∈ dot_S128x128_S8192x128_S128x8192_1_1_0_0_n_n.rhsNonContracting by decide)]
  rfl
theorem rhs_mm_1 (j : S128x8192.Idx) (q : dot_S128x128_S8192x128_S128x8192_1_1_0_0_n_n.contr.Idx) :
    (dot_S128x128_S8192x128_S128x8192_1_1_0_0_n_n.rhsIdx j q 1).val = (q ⟨0, by decide⟩).val :=
  dot_S128x128_S8192x128_S128x8192_1_1_0_0_n_n.rhsIdx_val_of_single rfl j q

/-- The matrix product into the zero splat, at (r, j): the sum over the features of the products of row r of the
    tile and row j of the whole array. -/
theorem mm_apply (x0 : FVec Ideal S128x128 .f32) (x1 : FVec Ideal S8192x128 .f32) (r : Fin 128) (j : Fin 8192) :
    matmul dot_S128x128_S8192x128_S128x8192_1_1_0_0_n_n none x0 x1 (constant (F := Ideal) S128x8192 .f32 0x00000000#32) (ix2 r j)
      = ∑ k : Fin 128, x0 (ix2 r k) * x1 (ix2 j k) := by
  simp only [matmul]
  rw [Ideal.matmul_constant_zero_apply, ← Equiv.sum_comp (ValueIdx.contrEquiv1 dot_S128x128_S8192x128_S128x8192_1_1_0_0_n_n 128 rfl rfl).symm]
  refine Finset.sum_congr rfl fun k _ => ?_
  have hk := ValueIdx.contrEquiv1_symm_val dot_S128x128_S8192x128_S128x8192_1_1_0_0_n_n 128 rfl rfl k
  have el : dot_S128x128_S8192x128_S128x8192_1_1_0_0_n_n.lhsIdx (ix2 r j) ((ValueIdx.contrEquiv1 dot_S128x128_S8192x128_S128x8192_1_1_0_0_n_n 128 rfl rfl).symm k) = ix2 r k := funext fun a => Fin.ext (by
    match a with
    | ⟨0, _⟩ => exact lhs_mm_0 _ _
    | ⟨1, _⟩ => exact (lhs_mm_1 _ _).trans hk)
  have er : dot_S128x128_S8192x128_S128x8192_1_1_0_0_n_n.rhsIdx (ix2 r j) ((ValueIdx.contrEquiv1 dot_S128x128_S8192x128_S128x8192_1_1_0_0_n_n 128 rfl rfl).symm k) = ix2 j k := funext fun a => Fin.ext (by
    match a with
    | ⟨0, _⟩ => exact rhs_mm_0 _ _
    | ⟨1, _⟩ => exact (rhs_mm_1 _ _).trans hk)
  rw [el, er]

/-! ## The logits -/

/-- The kernel's logits: the product of the tile's rows with all rows times the named reciprocal, with the fill
    where the diagonal mask is set. -/
def logits (i : grid0.Coords) (x0 : FVec Ideal S128x128 .f32) (x1 : FVec Ideal S8192x128 .f32) : FVec Ideal S128x8192 .f32 :=
  select (k0_pay5 i) (broadcast S128x8192 (Scalar.ofBits (F := Ideal) .f32 0xCE6E6B28#32))
    (mulf (matmul dot_S128x128_S8192x128_S128x8192_1_1_0_0_n_n none x0 x1 (constant (F := Ideal) S128x8192 .f32 0x00000000#32))
      (broadcast S128x8192 (Named.named (F := Ideal) κ "inv_temperature" (φ := .f32) 0x41649249#32)))

/-- The logits at (r, j) are the specification's logit of the global row 128·t + r against row j. -/
theorem logits_apply (i : grid0.Coords) (t : Fin 64) (x0 : FVec Ideal S128x128 .f32) (x1 : FVec Ideal S8192x128 .f32)
    (e : Cert.Spec.EIdx → EReal)
    (h0 : ∀ (r k : Fin 128), x0 (ix2 r k) = e (ix2 (⟨128 * t.val + r.val, by have := t.isLt; have := r.isLt; omega⟩ : Fin 8192) k))
    (h1 : ∀ (j : Fin 8192) (k : Fin 128), x1 (ix2 j k) = e (ix2 j k))
    (h5 : ∀ (r : Fin 128) (j : Fin 8192), k0_pay5 i (ix2 r j)
      = if (⟨128 * t.val + r.val, by have := t.isLt; have := r.isLt; omega⟩ : Fin 8192) = j then 1#1 else 0#1)
    (r : Fin 128) (j : Fin 8192) :
    logits i x0 x1 (ix2 r j) = Cert.Spec.sim e ⟨128 * t.val + r.val, by have := t.isLt; have := r.isLt; omega⟩ j := by
  unfold logits Cert.Spec.sim
  rw [select_apply, h5 r j]
  by_cases hd : (⟨128 * t.val + r.val, by have := t.isLt; have := r.isLt; omega⟩ : Fin 8192) = j
  · rw [if_pos hd, if_pos hd, select_one]
    rfl
  · rw [if_neg hd, if_neg hd, select_zero, mulf_apply, mm_apply, broadcast_apply, inv_temp, mul_inv_temp]
    unfold Cert.Spec.gram
    exact congrArg (fun s => Ideal.div s Cert.Spec.temp) (Finset.sum_congr rfl fun k _ => by rw [h0 r k, h1 j k])

end Cert.KernelIdeal.PayValue

end
-- ==== Proof.PayLayout.lean ====
/-
  Layout lemmas for the row statistics of a [128, 8192] tile: a reduction along the lanes read at a row, the column
  [128] recast as [128, 1], and that column broadcast back along the lanes.
-/
import proofs.«138464_j23570780520482_1_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.PayValue

open Cert.KernelIdeal Cert.KernelIdeal.Gen Idealize.ShloMosaic Idealize.ShloMosaic.ValueIdx

/-- The reduced row index r with the lane j put back is the tile index (r, j). -/
theorem lift_row (r : Fin 128) (j : Fin 8192) :
    Facts₀.reduces_S128x8192_S128.lift (ix1 r) j = ix2 r j := funext fun a => Fin.ext (by
  match a with
  | ⟨0, _⟩ => rfl
  | ⟨1, _⟩ => rfl)

/-- A column [128] recast as [128, 1], read at (r, 0). -/
theorem col_cast_apply {α : Type} (v : S128.Idx → α) (r : Fin 128) (u : Fin 1) :
    shapeCast S128x1 v Facts₀.shapeCasts_S128_S128x1 (ix2 r u) = v (ix1 r) :=
  shapeCast_apply v _ _ _ (by
    have hu : u.val = 0 := by omega
    rw [Shape.rowMajor_val_two, Shape.rowMajor_val_one]
    show r.val = r.val * 1 + u.val
    rw [hu, Nat.mul_one, Nat.add_zero])

/-- A column [128, 1] broadcast along the lanes, read at (r, j). -/
theorem col_bcast_apply {α : Type} (v : S128x1.Idx → α) (r : Fin 128) (j : Fin 8192) :
    broadcastTo S128x8192 v Facts₀.broadcasts_S128x1_S128x8192 (ix2 r j) = v (ix2 r (0 : Fin 1)) := by
  refine broadcastTo_apply v _ (ix2 r j) (ix2 r (0 : Fin 1)) fun ax => ?_
  match ax with
  | ⟨0, _⟩ =>
    show r.val = if (128 : ℕ) = 1 then 0 else r.val
    rw [if_neg (by decide)]
  | ⟨1, _⟩ => rfl

/-- A lane maximum from minus infinity, read at row r: the fold of max over the row. -/
theorem rowmax_apply (L : FVec Ideal S128x8192 .f32) (hφ : FKind.Formats .f32)
    (hacc : (0xFF800000#32 : BitVec 32) = FKind.maximumf.neutral .f32 hφ) (r : Fin 128) :
    multiReduction .maximumf [1] S128 L 0xFF800000#32 Facts₀.reduces_S128x8192_S128 hφ hacc (ix1 r)
      = (Finset.univ : Finset (Fin 8192)).fold max (Ideal.ofBits .f32 0xFF800000#32) (fun j => L (ix2 r j)) := by
  refine (Ideal.multiReduction_maximumf_single L 0xFF800000#32 Facts₀.reduces_S128x8192_S128 hφ hacc (ix1 r)).trans ?_
  show (Finset.univ : Finset (Fin 8192)).fold max (Ideal.ofBits .f32 0xFF800000#32) (L ∘ Facts₀.reduces_S128x8192_S128.lift (ix1 r)) = _
  congr 1
  funext j
  exact congrArg L (lift_row r j)

/-- A lane sum from zero, read at row r: the sum over the row. -/
theorem rowsum_apply (L : FVec Ideal S128x8192 .f32) (hφ : FKind.Formats .f32)
    (hacc : (0x00000000#32 : BitVec 32) = FKind.add.neutral .f32 hφ) (r : Fin 128) :
    multiReduction .add [1] S128 L 0x00000000#32 Facts₀.reduces_S128x8192_S128 hφ hacc (ix1 r)
      = ∑ j : Fin 8192, L (ix2 r j) := by
  refine (Ideal.multiReduction_add_single L 0x00000000#32 Facts₀.reduces_S128x8192_S128 hφ hacc (ix1 r)).trans ?_
  show ∑ j : Fin 8192, L (Facts₀.reduces_S128x8192_S128.lift (ix1 r) j) = _
  exact Finset.sum_congr rfl fun j _ => congrArg L (lift_row r j)

end Cert.KernelIdeal.PayValue

end
-- ==== Proof.PayFloat.lean ====
/-
  The kernel's row log-softmax and masked row sum at the ideal instance, over any logits L and any mask M: the row
  maximum, the shifted logits, the logarithm of the sum of their exponentials, the log-probabilities, and the sum along
  the lanes of the log-probabilities the mask keeps. With the logits the specification's `sim` and the mask its
  positives, the result at row r is the specification's `posSum` of the global row.
-/
import proofs.«138464_j23570780520482_1_alg».proof.Proof.PaySim
import proofs.«138464_j23570780520482_1_alg».proof.Proof.PayLayout

noncomputable section

namespace Cert.KernelIdeal.PayValue

open Cert.KernelIdeal Cert.KernelIdeal.Gen Idealize.ShloMosaic Idealize.ShloMosaic.ValueIdx

/-! ## The chain, stage by stage -/

/-- The row maxima, as a column. -/
def rmaxV (L : FVec Ideal S128x8192 .f32) : FVec Ideal S128x1 .f32 :=
  shapeCast S128x1 (multiReduction .maximumf [1] S128 L 0xFF800000#32 Facts₀.reduces_S128x8192_S128 (.inl rfl) rfl) Facts₀.shapeCasts_S128_S128x1

/-- The logits minus their row's maximum. -/
def shiftV (L : FVec Ideal S128x8192 .f32) : FVec Ideal S128x8192 .f32 :=
  subf L (broadcastTo S128x8192 (rmaxV L) Facts₀.broadcasts_S128x1_S128x8192)

/-- The logarithm of each row's sum of exponentials, as a column. -/
def lseV (L : FVec Ideal S128x8192 .f32) : FVec Ideal S128x1 .f32 :=
  log (shapeCast S128x1 (multiReduction .add [1] S128 (exp (shiftV L)) 0x00000000#32 Facts₀.reduces_S128x8192_S128 (.inl rfl) rfl) Facts₀.shapeCasts_S128_S128x1)

/-- The log-probabilities. -/
def logpV (L : FVec Ideal S128x8192 .f32) : FVec Ideal S128x8192 .f32 :=
  subf (shiftV L) (broadcastTo S128x8192 (lseV L) Facts₀.broadcasts_S128x1_S128x8192)

/-- The row sums of the log-probabilities the mask keeps, as a column. -/
def tailV (L : FVec Ideal S128x8192 .f32) (M : IVec S128x8192 1) : FVec Ideal S128x1 .f32 :=
  shapeCast S128x1 (multiReduction .add [1] S128 (select M (logpV L) (broadcast S128x8192 (Scalar.ofBits (F := Ideal) .f32 0x00000000#32))) 0x00000000#32 Facts₀.reduces_S128x8192_S128 (.inl rfl) rfl) Facts₀.shapeCasts_S128_S128x1

/-- The payload is this chain over the kernel's logits and its positives mask. -/
theorem pay7_eq (i : grid0.Coords) (x0 : Vec Ideal S128x128 .f32) (x1 : Vec Ideal S8192x128 .f32)
    (x2 : Vec Ideal S128x1 .i32) (x3 : Vec Ideal S1x8192 .i32) :
    k0_pay7 (F := Ideal) i x0 x1 x2 x3 = tailV (logits i x0 x1) (k0_pay6 (F := Ideal) i x2 x3) := rfl

/-! ## Each stage at an index -/

theorem rmaxV_apply (L : FVec Ideal S128x8192 .f32) (r : Fin 128) (u : Fin 1) :
    rmaxV L (ix2 r u) = (Finset.univ : Finset (Fin 8192)).fold max (Ideal.ofBits .f32 0xFF800000#32) (fun j => L (ix2 r j)) := by
  unfold rmaxV
  exact (col_cast_apply _ r u).trans (rowmax_apply L _ _ r)

theorem shiftV_apply (L : FVec Ideal S128x8192 .f32) (r : Fin 128) (j : Fin 8192) :
    shiftV L (ix2 r j) = L (ix2 r j) - rmaxV L (ix2 r (0 : Fin 1)) := by
  unfold shiftV
  rw [subf_apply, col_bcast_apply]

theorem lseV_apply (L : FVec Ideal S128x8192 .f32) (r : Fin 128) (u : Fin 1) :
    lseV L (ix2 r u) = Ideal.log (∑ j : Fin 8192, Ideal.exp (shiftV L (ix2 r j))) := by
  unfold lseV
  exact congrArg Ideal.log ((col_cast_apply _ r u).trans (rowsum_apply _ _ _ r))

theorem logpV_apply (L : FVec Ideal S128x8192 .f32) (r : Fin 128) (j : Fin 8192) :
    logpV L (ix2 r j) = shiftV L (ix2 r j) - lseV L (ix2 r (0 : Fin 1)) := by
  unfold logpV
  rw [subf_apply, col_bcast_apply]

theorem tailV_apply (L : FVec Ideal S128x8192 .f32) (M : IVec S128x8192 1) (r : Fin 128) (u : Fin 1) :
    tailV L M (ix2 r u) = ∑ j : Fin 8192, Scalar.select (M (ix2 r j)) (logpV L (ix2 r j)) 0 := by
  unfold tailV
  refine ((col_cast_apply _ r u).trans (rowsum_apply _ _ _ r)).trans ?_
  refine Finset.sum_congr rfl fun j _ => ?_
  rw [select_apply, broadcast_apply]
  show Scalar.select _ _ (Ideal.ofBits .f32 0x00000000#32) = _
  rw [Ideal.ofBits_zero_f32]

/-! ## The payload at a row -/

/-- The float chain's result at tile row r is the specification's sum of the positives' log-probabilities of the
    global row 128·t + r. -/
theorem pay7_apply (i : grid0.Coords) (t : Fin 64) (hi : (i 0).val = t.val)
    (x0 : Vec Ideal S128x128 .f32) (x1 : Vec Ideal S8192x128 .f32) (x2 : Vec Ideal S128x1 .i32) (x3 : Vec Ideal S1x8192 .i32)
    (e : Cert.Spec.EIdx → EReal) (l : Cert.Spec.LIdx → BitVec 32)
    (h0 : ∀ (r k : Fin 128), x0 (ix2 r k) = e (ix2 (⟨128 * t.val + r.val, by have := t.isLt; have := r.isLt; omega⟩ : Fin 8192) k))
    (h1 : ∀ (j : Fin 8192) (k : Fin 128), x1 (ix2 j k) = e (ix2 j k))
    (h5 : ∀ (r : Fin 128) (j : Fin 8192), k0_pay5 i (ix2 r j)
      = if (⟨128 * t.val + r.val, by have := t.isLt; have := r.isLt; omega⟩ : Fin 8192) = j then 1#1 else 0#1)
    (h6 : ∀ (r : Fin 128) (j : Fin 8192), k0_pay6 (F := Ideal) i x2 x3 (ix2 r j)
      = if Cert.Spec.pos l (⟨128 * t.val + r.val, by have := t.isLt; have := r.isLt; omega⟩ : Fin 8192) j then 1#1 else 0#1)
    (r : Fin 128) :
    k0_pay7 (F := Ideal) i x0 x1 x2 x3 (ix2 r (0 : Fin 1))
      = Cert.Spec.posSum e l ⟨128 * t.val + r.val, by have := t.isLt; have := r.isLt; omega⟩ := by
  have hL := logits_apply i t x0 x1 e h0 h1 h5 r
  rw [pay7_eq, tailV_apply]
  unfold Cert.Spec.posSum
  refine Finset.sum_congr rfl fun j _ => ?_
  rw [h6 r j]
  by_cases hp : Cert.Spec.pos l (⟨128 * t.val + r.val, by have := t.isLt; have := r.isLt; omega⟩ : Fin 8192) j
  · rw [if_pos hp, if_pos hp, select_one, logpV_apply, lseV_apply]
    unfold Cert.Spec.logp Cert.Spec.denom Cert.Spec.rowMax Cert.Spec.negInf
    simp only [shiftV_apply, rmaxV_apply, hL]
  · rw [if_neg hp, if_neg hp, select_zero]

end Cert.KernelIdeal.PayValue

end
-- ==== Proof.TailValue.lean ====
/-
  The operations after the region, at the ideal instance: the two sums over the arrays the region writes, the negation,
  the maximum with one and the quotient. Fed the rows' means and the rows' zero-or-one flags, they leave the loss of the
  common specification at the one index of the result.
-/
import proofs.«138464_j23570780520482_1_alg».proof.Proof.EntryIdeal
import proofs.«138464_j23570780520482_1_alg».proof.Proof.Spec
import Idealize.ShloMosaic.PureOps.Ideal.Laws
import Idealize.ShloMosaic.Lib.ValueIdx
import Idealize.ShloMosaic.Lib.IdealHost

noncomputable section

namespace Cert.KernelIdeal.TailValue

open Cert.KernelIdeal Cert.KernelIdeal.Gen
open Idealize.ShloMosaic Idealize.ShloMosaic.ValueIdx

/-- A sum over the index set of an `n`-by-one array is the sum over its rows. -/
theorem sum_col {M : Type*} [AddCommMonoid M] {n : Nat} (f : (⟨2, ![n, 1]⟩ : Shape).Idx → M) :
    ∑ i, f i = ∑ a : Fin n, f (ix2 a 0) := by
  rw [sum_idx2]
  refine Finset.sum_congr rfl fun a _ => ?_
  simp

/-- A sum of zero-or-one values over a finite set is the number of ones, in the extended reals. -/
theorem sum_ite_one_zero {ι : Type*} (s : Finset ι) (p : ι → Prop) [DecidablePred p] :
    (∑ i ∈ s, (if p i then (1 : EReal) else 0)) = ((s.filter p).card : EReal) := by
  classical
  induction s using Finset.induction_on with
  | empty => simp
  | insert a s ha ih =>
    rw [Finset.sum_insert ha, ih, Finset.filter_insert]
    by_cases hp : p a
    · rw [if_pos hp, if_pos hp, Finset.card_insert_of_notMem (by simp [ha])]
      push_cast
      rw [add_comm]
    · rw [if_neg hp, if_neg hp, zero_add]

/-- The flags sum to the number of rows that have a positive. -/
theorem sum_hasPos (l : Cert.Spec.LIdx → BitVec 32) :
    (∑ i : Fin 8192, Cert.Spec.hasPos l i) = ((Cert.Spec.nHas l : ℕ) : EReal) := by
  unfold Cert.Spec.hasPos Cert.Spec.nHas
  exact sum_ite_one_zero Finset.univ _

/-- The larger of a natural number and one, taken in the extended reals or in the naturals. -/
theorem max_natCast_one (n : ℕ) : max ((n : ℕ) : EReal) 1 = ((max n 1 : ℕ) : EReal) := by
  rcases le_total n 1 with h | h
  · rw [max_eq_right h, max_eq_right (by exact_mod_cast h)]; simp
  · rw [max_eq_left h, max_eq_left (by exact_mod_cast h)]

theorem tail_spec (e : Cert.Spec.EIdx → EReal) (l : Cert.Spec.LIdx → BitVec 32) (a4 a5 : FVec Ideal S8192x1 .f32)
    (h4 : ∀ i : Fin 8192, a4 (ix2 i 0) = Cert.Spec.rowMean e l i) (h5 : ∀ i : Fin 8192, a5 (ix2 i 0) = Cert.Spec.hasPos l i) :
    Cert.KernelIdeal.Hand.tailVal (F := Ideal) a4 a5 = fun _ => Cert.Spec.loss e l := by
  funext j
  unfold Cert.KernelIdeal.Hand.tailVal
  rw [hostDivf_apply, maximumf_apply, constant_apply, Ideal.ofBits_one_f32, hostReduceAdd_apply, constant_apply,
    Ideal.ofBits_zero_f32, Ideal.hostReduceAdd_total _ (fun b => b.elim0), zero_add, sum_col]
  change Ideal.div (-(Host.reduceAdd a4 (constant S_ .f32 0x00000000#32) reducesTo_S8192x1_S_d0_1 h_S_ j)) _ = _
  rw [hostReduceAdd_apply, constant_apply, Ideal.ofBits_zero_f32, Ideal.hostReduceAdd_total _ (fun b => b.elim0), zero_add,
    sum_col]
  simp only [h4, h5]
  rw [sum_hasPos, max_natCast_one]
  rfl

end Cert.KernelIdeal.TailValue

end
-- ==== Proof.KernelValue.lean ====
/-
  The kernel's value assembled. At every grid point the body leaves, in the first output buffer, the mean of the
  positives' log-probabilities of each of the point's 128 global rows, and in the second the rows' has-positive flags;
  the 64 blocks tile the two result arrays, so after the region the arrays are the specification's row means and flags,
  and the operations after the region leave the specification's loss of the launched embeddings and labels.
-/
import proofs.«138464_j23570780520482_1_alg».proof.Proof.BodyIdeal
import proofs.«138464_j23570780520482_1_alg».proof.Proof.Blocks
import proofs.«138464_j23570780520482_1_alg».proof.Proof.Cover
import proofs.«138464_j23570780520482_1_alg».proof.Proof.PayMask
import proofs.«138464_j23570780520482_1_alg».proof.Proof.PayCount
import proofs.«138464_j23570780520482_1_alg».proof.Proof.PayFloat
import proofs.«138464_j23570780520482_1_alg».proof.Proof.TailValue

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)

variable (m : (ℓ : Loc nD τ sig) → Buf (Elt Ideal) ℓ)

/-- The launched embeddings of core `c`, as the specification's first argument. -/
abbrev embOf (c : Dev nD) : Cert.Spec.EIdx → EReal :=
  (m ((c : Thread nD τ).loc main_arg0) : S8192x128.Idx → Elt Ideal .f32)

/-- The launched labels of core `c`, as the specification's second argument. -/
abbrev labOf (c : Dev nD) : Cert.Spec.LIdx → BitVec 32 :=
  (m ((c : Thread nD τ).loc main_arg1) : S8192.Idx → Elt Ideal .i32)

/-- The one coordinate of the `t`-th grid point is `t`. -/
theorem coords_val : ∀ t : Fin cfg0.N, (grid0.coords t 0).val = t.val :=
  (by decide +kernel : ∀ t : Fin grid0.N, _)

/-- A grid point's number, below 64. -/
def pt (t : Fin cfg0.N) : Fin 64 := ⟨t.val, by have := t.isLt; have : cfg0.N = 64 := N_0; omega⟩

/-- What the body leaves in the first output buffer at point `t`, row `r`: the row mean of global row `128 t + r`. -/
theorem after4_spec (c : Dev nD) (t : Fin cfg0.N) (r : Fin 128) :
    ((dats m 0 c).after 4 t : S128x1.Idx → Elt Ideal .f32) (ix2 r 0)
      = Cert.Spec.rowMean (embOf m c) (labOf m c) ⟨128 * t.val + r.val, row_lt t r⟩ := by
  rw [after0_4, out4_eq]
  have hi : (grid0.coords t 0).val = (pt t).val := coords_val t
  have h0 : ∀ (r k : Fin 128), (iblk m c 0 t : S128x128.Idx → Elt Ideal .f32) (ix2 r k)
      = embOf m c (ix2 (⟨128 * (pt t).val + r.val, row_lt t r⟩ : Fin 8192) k) := fun r k => iblk0_apply m c t r k
  have h1 : ∀ (j : Fin 8192) (k : Fin 128), (iblk m c 1 t : S8192x128.Idx → Elt Ideal .f32) (ix2 j k)
      = embOf m c (ix2 j k) := fun j k => iblk1_apply m c t j k
  have h2 : ∀ r : Fin 128, (iblk m c 2 t : S128x1.Idx → Elt Ideal .i32) (ix2 r 0)
      = labOf m c (ix1 (⟨128 * (pt t).val + r.val, row_lt t r⟩ : Fin 8192)) := fun r => iblk2_apply m c t r
  have h3 : ∀ j : Fin 8192, (iblk m c 3 t : S1x8192.Idx → Elt Ideal .i32) (ix2 0 j)
      = labOf m c (ix1 j) := fun j => iblk3_apply m c t j
  have h5 := PayValue.pay5_apply (grid0.coords t) (pt t) hi
  have h6 := PayValue.pay6_apply (F := Ideal) (grid0.coords t) (pt t) hi (iblk m c 2 t) (iblk m c 3 t) (labOf m c) h2 h3
  have h7 := PayValue.pay7_apply (grid0.coords t) (pt t) hi (iblk m c 0 t) (iblk m c 1 t) (iblk m c 2 t) (iblk m c 3 t)
    (embOf m c) (labOf m c) h0 h1 h5 h6 r
  refine (PayValue.pay3_apply (grid0.coords t) (pt t) hi (iblk m c 2 t) (iblk m c 3 t) (labOf m c) h2 h3 r
    (k0_pay7 (F := Ideal) (grid0.coords t) (iblk m c 0 t) (iblk m c 1 t) (iblk m c 2 t) (iblk m c 3 t)) _ h7).trans ?_
  rfl

/-- What the body leaves in the second output buffer at point `t`, row `r`: the has-positive flag of global row `128 t + r`. -/
theorem after5_spec (c : Dev nD) (t : Fin cfg0.N) (r : Fin 128) :
    ((dats m 0 c).after 5 t : S128x1.Idx → Elt Ideal .f32) (ix2 r 0)
      = Cert.Spec.hasPos (labOf m c) ⟨128 * t.val + r.val, row_lt t r⟩ := by
  rw [after0_5, out5_eq]
  have hi : (grid0.coords t 0).val = (pt t).val := coords_val t
  have h2 : ∀ r : Fin 128, (iblk m c 2 t : S128x1.Idx → Elt Ideal .i32) (ix2 r 0)
      = labOf m c (ix1 (⟨128 * (pt t).val + r.val, row_lt t r⟩ : Fin 8192)) := fun r => iblk2_apply m c t r
  have h3 : ∀ j : Fin 8192, (iblk m c 3 t : S1x8192.Idx → Elt Ideal .i32) (ix2 0 j)
      = labOf m c (ix1 j) := fun j => iblk3_apply m c t j
  exact PayValue.pay4_apply (grid0.coords t) (pt t) hi (iblk m c 2 t) (iblk m c 3 t) (labOf m c) h2 h3 r

/-- The program's result at the ideal instance: the specification's loss of the launched embeddings and labels. -/
theorem kernel_value (c : Dev nD) :
    tailVal (F := Ideal) ((dats m 0 c).arrAt 4 cfg0.N) ((dats m 0 c).arrAt 5 cfg0.N)
      = fun _ => Cert.Spec.loss (embOf m c) (labOf m c) := by
  have e4 := arrAt4_eq c (dats m 0 c) (fun i : S8192x1.Idx => Cert.Spec.rowMean (embOf m c) (labOf m c) ⟨(i 0).val, (i 0).isLt⟩)
    (fun t r => after4_spec m c t r)
  have e5 := arrAt5_eq c (dats m 0 c) (fun i : S8192x1.Idx => Cert.Spec.hasPos (labOf m c) ⟨(i 0).val, (i 0).isLt⟩)
    (fun t r => after5_spec m c t r)
  rw [e4, e5]
  exact TailValue.tail_spec (embOf m c) (labOf m c) _ _ (fun i => rfl) (fun i => rfl)

end Cert.KernelIdeal.Hand

end
-- ==== Proof.PreservesClaim.lean ====
/-
  The one rewrite of the idealized kernel: the printed temperature constant is NAMED, and the certificate's table gives
  the name the value `134217728 / 9395241`, the reciprocal of the 32-bit float nearest `0.07`.
-/
import proofs.«138464_j23570780520482_1_alg».proof.Defs

noncomputable section

namespace Cert.Proof.Claims

open Idealize.ShloMosaic

/-- The named constant reads, at the ideal instance, the value the table gives its name. -/
theorem preserves : Cert.preserves_Kernel_KernelIdeal :=
  IdealRules.named_const.statement Cert.KernelIdeal.κ "inv_temperature" .f32 0x41649249#32
    ((134217728 / 9395241 : ℝ) : EReal) rfl

end Cert.Proof.Claims

end
-- ==== Proof.SharesIdeal.lean ====
/-
  The embeddings' array is handed to the kernel twice: as the tile of query rows (window 0) and whole (window 1). The two
  input windows hold it at the two halves of the full share; together the six windows' arrays are the five distinct
  buffers behind them, each held whole.
-/
import proofs.«138464_j23570780520482_1_alg».proof.Proof.EntryIdeal

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The windows' arrays: the embeddings (twice), the two reshaped label arrays, the two results. -/
theorem arrRefs_eq : Finset.univ.image (Pipeline.arrRef spec0) = [main_arg0, main_v0, main_v1, main_v2_0, main_v2_1].toFinset := by decide

/-- The six windows' arrays at contents read off one valuation of the buffers are the five distinct buffers at it: the
    embeddings' two half shares join to the full share and split again. -/
theorem arrays_iff (c : Dev nD) (dat : Dat τ (Elt F) Unit ℕ (UR sig nD τ) ℕ cfg0 c)
    (hq0 : dat.q 0 = fullShare.left) (hq1 : dat.q 1 = fullShare.right) (hq2 : dat.q 2 = fullShare) (hq3 : dat.q 3 = fullShare)
    (Vf : (b : Ref sig .tc) → Buf (Elt F) ((c.tc : Thread nD τ).loc b)) :
    (dat.arrays (fun w => Vf (Pipeline.arrRef spec0 w)) : sProp 𝕄) ⊣⊢ Pipeline.arrBufs spec0 c Vf := by
  have s0 : dat.share 0 = fullShare.left := hq0
  have s1 : dat.share 1 = fullShare.right := hq1
  have s2 : dat.share 2 = fullShare := hq2
  have s3 : dat.share 3 = fullShare := hq3
  have s4 : dat.share 4 = fullShare := rfl
  have s5 : dat.share 5 = fullShare := rfl
  unfold Dat.arrays Pipeline.arrBufs
  rw [bigSep_W0, bigSep_eq_bigSepL_of_eq _ arrRefs_eq (by decide)]
  simp only [bigSepL_cons_cons, bigSepL_singleton, s0, s1, s2, s3, s4, s5, (arr_whole0 0).set_eq_univ, (arr_whole0 1).set_eq_univ, (arr_whole0 2).set_eq_univ, (arr_whole0 3).set_eq_univ, (arr_whole0 4).set_eq_univ, (arr_whole0 5).set_eq_univ]
  show _ ⊣⊢ iprop((((c.tc : Thread nD τ).loc main_arg0) ↦{fullShare} Vf main_arg0) ∗ (((c.tc : Thread nD τ).loc main_v0) ↦{fullShare} Vf main_v0)
    ∗ (((c.tc : Thread nD τ).loc main_v1) ↦{fullShare} Vf main_v1) ∗ (((c.tc : Thread nD τ).loc main_v2_0) ↦{fullShare} Vf main_v2_0)
    ∗ (((c.tc : Thread nD τ).loc main_v2_1) ↦{fullShare} Vf main_v2_1))
  refine ⟨?_, ?_⟩
  · iintro ⟨H0, H1, H2, H3, H4, H5⟩
    isplitl [H0 H1]
    · iapply (pointsTo_share (PosShare.mem_left_op_right fullShare)).2
      isplitl [H0]
      · iexact H0
      · iexact H1
    isplitl [H2]; · iexact H2
    isplitl [H3]; · iexact H3
    isplitl [H4]; · iexact H4
    iexact H5
  · iintro ⟨H0, H2, H3, H4, H5⟩
    have hs : ((((c.tc : Thread nD τ).loc main_arg0) ↦{fullShare} Vf main_arg0) : sProp 𝕄)
        ⊣⊢ iprop((((c.tc : Thread nD τ).loc main_arg0) ↦{fullShare.left} Vf main_arg0) ∗ (((c.tc : Thread nD τ).loc main_arg0) ↦{fullShare.right} Vf main_arg0)) :=
      pointsTo_share (PosShare.mem_left_op_right fullShare)
    ihave H01 := hs.1 $$ H0
    icases H01 with ⟨H0, H1⟩
    isplitl [H0]; · iexact H0
    isplitl [H1]; · iexact H1
    isplitl [H2]; · iexact H2
    isplitl [H3]; · iexact H3
    isplitl [H4]; · iexact H4
    iexact H5

end Cert.KernelIdeal.Hand
end
-- ==== Proof.TailRunIdeal.lean ====
/-
  The operations after the region, run from what the region leaves: the two sums, the negation, the maximum and the
  quotient read the two result arrays and write their own scalars; every window's array ends as the region left it.
-/
import proofs.«138464_j23570780520482_1_alg».proof.Proof.SharesIdeal

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The buffers' contents when the region is left: as it found them, the two results at what the pipeline wrote back. -/
def Wv (c : Dev nD) (dat : Dat τ (Elt F) Unit ℕ (UR sig nD τ) ℕ cfg0 c) : Valuation τ sig (Elt F) :=
  Function.update (Function.update (V0 m c) (Proc.devRef .tc main_v2_0) (dat.arrAt 4 cfg0.N)) (Proc.devRef .tc main_v2_1) (dat.arrAt 5 cfg0.N)

/-- Every window's array after the last write-back is that valuation at the array's buffer: an input is never written,
    a result is what the pipeline wrote. -/
theorem Wv_arr (c : Dev nD) (dat : Dat τ (Elt F) Unit ℕ (UR sig nD τ) ℕ cfg0 c) (hA : ∀ w, dat.A w = V m c (Pipeline.arrRef spec0 w)) :
    ∀ w, dat.arrAt w cfg0.N = Wv m c dat (Proc.devRef .tc (Pipeline.arrRef spec0 w)) := by
  have hin : ∀ (w : Fin 6), (cfg0.win w).isOut = false → Pipeline.arrRef spec0 w ≠ main_v2_0 → Pipeline.arrRef spec0 w ≠ main_v2_1 →
      dat.arrAt w cfg0.N = Wv m c dat (Proc.devRef .tc (Pipeline.arrRef spec0 w)) := by
    intro w hw h0 h1
    rw [Pipeline.Dat.arrAt_in (dat := dat) w hw, hA]
    unfold Wv
    rw [Function.update_of_ne (StableHlo.devRef_ne_of_ne h1), Function.update_of_ne (StableHlo.devRef_ne_of_ne h0)]
  have h4 : dat.arrAt 4 cfg0.N = Wv m c dat (Proc.devRef .tc main_v2_0) := by
    unfold Wv
    rw [Function.update_of_ne (StableHlo.devRef_ne_of_ne (by decide)), Function.update_self]
  have h5 : dat.arrAt 5 cfg0.N = Wv m c dat (Proc.devRef .tc main_v2_1) := by
    unfold Wv
    rw [Function.update_self]
  exact fun
    | 0 => hin 0 rfl (by decide) (by decide)
    | 1 => hin 1 rfl (by decide) (by decide)
    | 2 => hin 2 rfl (by decide) (by decide)
    | 3 => hin 3 rfl (by decide) (by decide)
    | 4 => h4
    | 5 => h5
    | ⟨_ + 6, h⟩ => absurd h (Nat.not_lt.2 (Nat.le_add_left _ _))

set_option backward.isDefEq.respectTransparency.types false in
/-- The later operations, from the region's exit: holding the windows' arrays as the region left them and the other
    buffers as it found them, they run to their end, the arrays untouched and the other buffers at the operations'
    results over the exit contents. -/
theorem tail_run (c : Dev nD) (dat : Dat τ (Elt F) Unit ℕ (UR sig nD τ) ℕ cfg0 c)
    (hq0 : dat.q 0 = fullShare.left) (hq1 : dat.q 1 = fullShare.right) (hq2 : dat.q 2 = fullShare) (hq3 : dat.q 3 = fullShare)
    (hA : ∀ w, dat.A w = V m c (Pipeline.arrRef spec0 w)) (Q' : PUnit → sProp 𝕄) :
    iprop((iprop(dat.arrays (dat.arrAt · cfg0.N)
              ∗ Pipeline.unscopedRest spec0 c (fun b => StableHlo.after hostOps1 (Wv m c dat) (Proc.devRef .tc b))) -∗ Q' ⟨⟩)
        ∗ boundary (c.tc : Thread nD τ) ∗ dat.arrays (dat.arrAt · cfg0.N) ∗ Pipeline.unscopedRest spec0 c (V m c))
      ⊢ wp frame (wpE (defs (F := F)) (Variants.lift Variants.none) (c.tc : Thread nD τ) none) Set.univ
          (Pipeline.chain [StableHlo.seq hostOps1]) Q' := by
  classical
  -- no array's buffer is among the other unscoped buffers
  have hdisj : Disjoint (Finset.univ.image (Pipeline.arrRef spec0)) (Pipeline.restRefsP sig Pipeline.Prefetch.none spec0) :=
    Finset.disjoint_left.mpr fun b hb hr => (Finset.mem_sdiff.mp (Finset.mem_sdiff.mp hr).1).2 hb
  -- those buffers held at any contents: the arrays' distinct buffers and the other unscoped buffers
  have hheld : ∀ X : Valuation τ sig (Elt F),
      (StableHlo.held (c.tc : Thread nD τ) (Pipeline.tailRefs sig Pipeline.Prefetch.none spec0) X : sProp 𝕄)
        = iprop(Pipeline.arrBufs spec0 c (fun b => X (Proc.devRef .tc b)) ∗ Pipeline.unscopedRest spec0 c (fun b => X (Proc.devRef .tc b))) := by
    intro X
    rw [← Pipeline.unscopedRestP_none]
    unfold StableHlo.held Pipeline.tailRefs Pipeline.arrBufs Pipeline.unscopedRestP
    rw [bigSep_map, bigSep_union hdisj]
    rfl
  -- the arrays as the region left them are the exit contents at their buffers
  have harr : (dat.arrays (dat.arrAt · cfg0.N) : sProp 𝕄)
      = dat.arrays (fun w => (fun b : Ref sig .tc => Wv m c dat (Proc.devRef .tc b)) (Pipeline.arrRef spec0 w)) :=
    congrArg dat.arrays (funext (Wv_arr m c dat hA))
  -- the other buffers are as the region found them
  have hrest : (Pipeline.unscopedRest spec0 c (V m c) : sProp 𝕄)
      = Pipeline.unscopedRest spec0 c (fun b => Wv m c dat (Proc.devRef .tc b)) := by
    unfold Pipeline.unscopedRest
    refine bigSep_congr fun b hb => ?_
    have hb' := (Finset.mem_sdiff.mp hb).2
    have h0 : b ≠ main_v2_0 := fun e => hb' (Finset.mem_image.mpr ⟨4, Finset.mem_univ _, e.symm⟩)
    have h1 : b ≠ main_v2_1 := fun e => hb' (Finset.mem_image.mpr ⟨5, Finset.mem_univ _, e.symm⟩)
    have e : Wv m c dat (Proc.devRef .tc b) = V0 m c (Proc.devRef .tc b) := by
      unfold Wv
      rw [Function.update_of_ne (StableHlo.devRef_ne_of_ne h1), Function.update_of_ne (StableHlo.devRef_ne_of_ne h0)]
    show (((c.tc : Thread nD τ).loc b) ↦{fullShare} V0 m c (Proc.devRef .tc b) : sProp 𝕄)
      = (((c.tc : Thread nD τ).loc b) ↦{fullShare} Wv m c dat (Proc.devRef .tc b))
    rw [e]
  -- the later operations: within those buffers, allocating nothing, writing no array
  have hsub : ∀ ops ∈ ([hostOps1] : List (List (HloOp τ sig (Elt F)))), ∀ op ∈ ops,
      op.bufs ⊆ Pipeline.tailRefs sig Pipeline.Prefetch.none spec0 := by
    rw [Pipeline.tailRefs_none spec0 winFacts₀0.arr_unscoped]
    intro ops hops op hop
    simp only [List.mem_cons, List.mem_nil_iff, _root_.or_false] at hops
    rcases hops with rfl
    exact Pipeline.sub_ucRefs op ((List.forall_iff_forall_mem.mp hostOps1_sub) op hop)
  have hfresh : ∀ ops ∈ ([hostOps1] : List (List (HloOp τ sig (Elt F)))), ∀ op ∈ ops, op.fresh = ∅ := by
    intro ops hops op hop
    simp only [List.mem_cons, List.mem_nil_iff, _root_.or_false] at hops
    rcases hops with rfl
    exact (List.forall_iff_forall_mem.mp hostOps1_fresh) op hop
  have hkeep : ∀ op ∈ (hostOps1 : List (HloOp τ sig (Elt F))), ∀ w, Proc.devRef .tc (Pipeline.arrRef spec0 w) ∉ op.writes := by
    intro op hop
    simp only [hostOps1, List.mem_cons, List.mem_nil_iff, _root_.or_false] at hop
    rcases hop with rfl | rfl | rfl | rfl | rfl | rfl | rfl | rfl
    all_goals intro w; fin_cases w <;> simp only [StableHlo.nullary_writes, StableHlo.unary_writes, StableHlo.binary_writes, Finset.mem_singleton] <;> exact StableHlo.devRef_ne_of_ne (by decide)
  have hpost : (dat.arrays (fun w => (fun b : Ref sig .tc => StableHlo.after hostOps1 (Wv m c dat) (Proc.devRef .tc b)) (Pipeline.arrRef spec0 w)) : sProp 𝕄)
      = dat.arrays (fun w => (fun b : Ref sig .tc => Wv m c dat (Proc.devRef .tc b)) (Pipeline.arrRef spec0 w)) :=
    congrArg dat.arrays (funext fun w => StableHlo.after_of_forall_not_mem _ _ fun op hop => hkeep op hop w)
  have hflat : ([hostOps1] : List (List (HloOp τ sig (Elt F)))).flatten = hostOps1 := by
    simp only [List.flatten_cons, List.flatten_nil, List.append_nil]
  rw [harr, hrest]
  show _ ⊢ wp frame (wpE (Pipeline.defs pcfgs defs₀) (Variants.lift Variants.none) (c.tc : Thread nD τ) none) Set.univ
      (Pipeline.chain (([hostOps1] : List (List (HloOp τ sig (Elt F)))).map StableHlo.seq ++ [])) Q'
  iintro ⟨Hk, Hb, Ha, Hr⟩
  ihave Ha' := (arrays_iff c dat hq0 hq1 hq2 hq3 (fun b => Wv m c dat (Proc.devRef .tc b))).1 $$ Ha
  ihave Hheld := (show iprop(boundary (c.tc : Thread nD τ) ∗ Pipeline.arrBufs spec0 c (fun b => Wv m c dat (Proc.devRef .tc b))
        ∗ Pipeline.unscopedRest spec0 c (fun b => Wv m c dat (Proc.devRef .tc b)))
      ⊢ iprop(boundary (c.tc : Thread nD τ)
        ∗ (StableHlo.held (c.tc : Thread nD τ) (Pipeline.tailRefs sig Pipeline.Prefetch.none spec0) (Wv m c dat) : sProp 𝕄))
      from by rw [hheld]) $$ [Hb Ha' Hr]
  · isplitl [Hb]; · iexact Hb
    isplitl [Ha']; · iexact Ha'
    iexact Hr
  iapply (Pipeline.wp_seqs_then pcfgs defs₀ Variants.none c (Pipeline.tailRefs sig Pipeline.Prefetch.none spec0) [] [hostOps1]
    hsub hfresh (Wv m c dat)) $$ Hheld
  iintro Hb
  rw [Pipeline.chain_nil, wp_pure, hflat, hheld]
  imodintro
  iapply Hk
  icases Hb with ⟨-, Ha, Hr⟩
  isplitl [Ha]
  · ihave Ha' := (arrays_iff c dat hq0 hq1 hq2 hq3 (fun b => StableHlo.after hostOps1 (Wv m c dat) (Proc.devRef .tc b))).2 $$ Ha
    iapply (Entails.of_eq hpost)
    iexact Ha'
  · iexact Hr

end Cert.KernelIdeal.Hand
end
-- ==== Proof.LaunchIdeal.lean ====
/-
  The run of the whole program from the body's obligation: the launch deals each core its buffers; the embeddings' array
  goes to the two input windows that read it at the two halves of its share; the region's invariant is the scratch-free
  rest and the generator register; the later operations run from the region's exit; at the end every window's array holds
  what the pipeline's write-backs left and every other buffer what the later operations left.
-/
import proofs.«138464_j23570780520482_1_alg».proof.Proof.TailRunIdeal

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- From the body's obligation at every grid point, for proof data whose arrays are the region-entry contents, whose two
    windows on the embeddings hold the two halves of the share, and whose invariant is the class's: every weakly fair
    execution terminates, each window's array at the write-backs' result, each other buffer at the later operations'. -/
theorem run_of_body
    (dats : (p : Fin 1) → (c : Dev nD) → Dat τ (Elt F) Unit ℕ (UR sig nD τ) ℕ (cfgs p) c)
    (hA : ∀ c w, (dats 0 c).A w = V m c (Pipeline.arrRef spec0 w))
    (hq0 : ∀ c, (dats 0 c).q 0 = fullShare.left) (hq1 : ∀ c, (dats 0 c).q 1 = fullShare.right)
    (hq2 : ∀ c, (dats 0 c).q 2 = fullShare) (hq3 : ∀ c, (dats 0 c).q 3 = fullShare)
    (hΦ : ∀ c t, (dats 0 c).Φ t = Pipeline.ΦA spec0 c)
    (howed : ∀ c t, (dats 0 c).owed t = 0)
    (hbody : ∀ c, Pipeline.BodyObligationLoose (dats 0 c) defs₀ Variants.none () Set.univ) :
    θ_run defs (onTc (τ := τ) (main (F := F))) ⟨m, fun _ => 0, ρ⟩ (fun r => ∀ c : Dev nD,
      (∀ w, r.2.mem ((spec0 w).arr.view.loc (c.tc : Thread nD τ)) = (dats 0 c).arrAt w cfg0.N)
      ∧ ∀ b ∈ Pipeline.restRefs sig spec0, r.2.mem ((c.tc : Thread nD τ).loc b)
          = StableHlo.after hostOps1 (Wv m c (dats 0 c)) (Proc.devRef .tc b)) := by
  classical
  exact Pipeline.θ_run_region_pf_tail (fun q => (cfgs q).toPCfg (Val := Elt F)) (fun q => (cfgs q).toPCfg_adm) dats () cellOf_inj 0
    winFacts₀0 (Pipeline.OwnSemFacts.none spec0) (Pipeline.PreFacts.none _) emb₁ defs₀ Variants.none m ρ main
    (fun _ => Pipeline.chain [StableHlo.seq hostOps1]) hbody
    block_pos0 arr_whole0 stage_whole0 howed
    (G := fun _ => iprop(emp)) (u₀ := initOf (Pipeline.cells cfgs cellOf_inj) (Pipeline.launchToks cfgs cellOf_inj))
    (hu₀ := by
      iintro Hu; imodintro
      isplitl [Hu]
      · iapply (show (ownU _ : sProp 𝕄) ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (V := V m) (hmain := hmain m Variants.none)
    (hsplit := fun c => by
      have h0 : ((dats 0 c).arrAt · 0) = fun w => V m c (Pipeline.arrRef spec0 w) := funext fun w => hA c w
      rw [h0]
      exact (arrays_iff c (dats 0 c) (hq0 c) (hq1 c) (hq2 c) (hq3 c) (V m c)).2)
    (hpf := fun _ k => k.elim0)
    (X := fun c => iprop(∃ r, prngReg c r)) (Y := fun c => iprop(∃ r, prngReg c r))
    (Z := fun c => Pipeline.unscopedRestP (Ix := Unit) (Name := ℕ) (U := UR sig nD τ) (Lvl := ℕ) Pipeline.Prefetch.none spec0 c (V m c))
    (Z' := fun c => Pipeline.unscopedRestP (Ix := Unit) (Name := ℕ) (U := UR sig nD τ) (Lvl := ℕ) Pipeline.Prefetch.none spec0 c
      (fun b => StableHlo.after hostOps1 (Wv m c (dats 0 c)) (Proc.devRef .tc b)))
    (hX := fun c => by
      iintro ⟨HU, -, -, -, Hp, -⟩; imodintro
      isplitl [Hp]; · iexists _; iexact Hp
      iexact HU)
    (hin := fun c => by
      rw [hΦ]; unfold Pipeline.ΦA
      iintro ⟨Hp, -, Hr⟩
      isplitl [Hr]; · iexact Hr
      iexact Hp)
    (hout := fun c => by
      rw [hΦ, Pipeline.ownSems0_none]; unfold Pipeline.ΦA
      iintro ⟨Hr, Hp⟩
      isplitl [Hp]; · iexact Hp
      isplitr; · iempintro
      iexact Hr)
    (htail := fun c Q' => by
      rw [Pipeline.unscopedRestP_none, Pipeline.unscopedRestP_none]
      exact tail_run m c (dats 0 c) (hq0 c) (hq1 c) (hq2 c) (hq3 c) (hA c) Q')
    (QY := fun c s => ∀ b ∈ Pipeline.restRefsP sig Pipeline.Prefetch.none spec0, s.mem ((c.tc : Thread nD τ).loc b)
        = StableHlo.after hostOps1 (Wv m c (dats 0 c)) (Proc.devRef .tc b))
    (hY := fun c s' => by
      iintro ⟨-, HU, HSI⟩
      unfold Pipeline.unscopedRestP
      imodintro
      iapply (pointsTo_read_all (Pipeline.restRefsP sig Pipeline.Prefetch.none spec0) (fun b => (c.tc : Thread nD τ).loc b)
        (fun b => StableHlo.after hostOps1 (Wv m c (dats 0 c)) (Proc.devRef .tc b)) s')
      isplitl [HU] <;> iassumption)
    (hQ := fun s h c => ⟨(h c).1, Pipeline.rest_of_restP Pipeline.Prefetch.none spec0 ((cfgs 0).toPCfg_adm (Val := Elt F)).1 c _ s
      (fun k => k.elim0) (fun k => k.elim0) (h c).2.2⟩)

end Cert.KernelIdeal.Hand
end
-- ==== Proof.ReadBackIdeal.lean ====
/-
  The program's final memory read at the three buffers the claims name. The embeddings are an input window's array:
  the pipeline never writes them and the region found them as launched. The labels are no window's array and no later
  operation writes them. The result buffer holds the later operations' term over the two arrays the region wrote back.
-/
import proofs.«138464_j23570780520482_1_alg».proof.Proof.LaunchIdeal
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

variable (m : (ℓ : Loc nD τ sig) → Buf (Elt F) ℓ) (ρ : Dev nD → PrngReg)

/-- No operation after the region writes the labels, and the region's exit contents leave them as launched. -/
theorem after_arg1 (c : Dev nD) (dat : Dat τ (Elt F) Unit ℕ (UR sig nD τ) ℕ cfg0 c) :
    StableHlo.after hostOps1 (Wv m c dat) (Proc.devRef .tc main_arg1) = m ((c : Thread nD τ).loc main_arg1) := by
  rw [StableHlo.after_of_forall_not_mem (b := Proc.devRef .tc main_arg1) _ _ (List.forall_iff_forall_mem.mp (by
      simp only [hostOps1, List.Forall, StableHlo.nullary_writes, StableHlo.unary_writes, StableHlo.binary_writes,
        Finset.mem_singleton]
      repeat' apply And.intro
      all_goals exact StableHlo.devRef_ne_of_ne (by decide)))]
  unfold Wv
  rw [Function.update_of_ne (StableHlo.devRef_ne_of_ne (by decide)), Function.update_of_ne (StableHlo.devRef_ne_of_ne (by decide))]
  exact V_main_arg1 m c

/-- The region's exit contents at its two result arrays. -/
theorem Wv_v2_0 (c : Dev nD) (dat : Dat τ (Elt F) Unit ℕ (UR sig nD τ) ℕ cfg0 c) :
    Wv m c dat (Proc.devRef .tc main_v2_0) = dat.arrAt 4 cfg0.N := by
  unfold Wv
  rw [Function.update_of_ne (StableHlo.devRef_ne_of_ne (by decide))]
  exact Function.update_self _ _ _
theorem Wv_v2_1 (c : Dev nD) (dat : Dat τ (Elt F) Unit ℕ (UR sig nD τ) ℕ cfg0 c) :
    Wv m c dat (Proc.devRef .tc main_v2_1) = dat.arrAt 5 cfg0.N := by
  unfold Wv
  exact Function.update_self _ _ _

/-- The result buffer after the later operations: their term over the two arrays the region wrote. -/
theorem after_v7 (c : Dev nD) (dat : Dat τ (Elt F) Unit ℕ (UR sig nD τ) ℕ cfg0 c) :
    StableHlo.after hostOps1 (Wv m c dat) (Proc.devRef .tc main_v7) = tailVal (dat.arrAt 4 cfg0.N) (dat.arrAt 5 cfg0.N) := by
  show StableHlo.after hostOps1 _ (Proc.devRef .tc main_v7) = _
  after_results
  rw [Wv_v2_0, Wv_v2_1]
  rfl

/-- The program's run, read at the result buffer and at the two arguments: the result is the later operations' term
    over the two arrays the region wrote, and both arguments end as launched. -/
theorem run_value (m : (ℓ : Loc nD τ sig) → Buf (Elt F) ℓ) (ρ : Dev nD → PrngReg)
    (dats : (p : Fin 1) → (c : Dev nD) → Dat τ (Elt F) Unit ℕ (UR sig nD τ) ℕ (cfgs p) c)
    (hA : ∀ c w, (dats 0 c).A w = V m c (Pipeline.arrRef spec0 w))
    (hq0 : ∀ c, (dats 0 c).q 0 = fullShare.left) (hq1 : ∀ c, (dats 0 c).q 1 = fullShare.right)
    (hq2 : ∀ c, (dats 0 c).q 2 = fullShare) (hq3 : ∀ c, (dats 0 c).q 3 = fullShare)
    (hΦ : ∀ c t, (dats 0 c).Φ t = Pipeline.ΦA spec0 c) (howed : ∀ c t, (dats 0 c).owed t = 0)
    (hbody : ∀ c, Pipeline.BodyObligationLoose (dats 0 c) defs₀ Variants.none () Set.univ) :
    θ_run defs (onTc (τ := τ) (main (F := F))) ⟨m, fun _ => 0, ρ⟩ (fun r => ∀ c : Dev nD,
      r.2.mem ((c.tc : Thread nD τ).loc main_v7) = tailVal ((dats 0 c).arrAt 4 cfg0.N) ((dats 0 c).arrAt 5 cfg0.N)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨((h c).2 main_v7 (Pipeline.mem_restRefs_of main_v7 (by decide) (by decide))).trans (after_v7 m c (dats 0 c)),
     ((h c).1 0).trans (((dats 0 c).arrAt_in 0 rfl _).trans ((hA c 0).trans (V_main_arg0 m c))),
     ((h c).2 main_arg1 (Pipeline.mem_restRefs_of main_arg1 (by decide) (by decide))).trans (after_arg1 m c (dats 0 c))⟩)
    (run_of_body m ρ dats hA hq0 hq1 hq2 hq3 hΦ howed hbody)

end Cert.KernelIdeal.Hand
end
-- ==== Proof.EntryBits.lean ====
/-
  The program around its one kernel region: two reshapes of the labels before it, the two reductions, the negation,
  the maximum and the quotient after it. Here: the buffers' contents when the region is entered, each window's block at
  a grid point read off them, the reduction of the program to the region continued by the later operations, and the
  later operations' result as a function of the two arrays the region writes.
-/
import proofs.«138464_j23570780520482_1_alg».proof.Proof.Gen.Kernel.Launch
import proofs.«138464_j23570780520482_1_alg».proof.Proof.Gen.Kernel.Skeleton
import proofs.«138464_j23570780520482_1_alg».proof.Proof.Gen.Kernel.Points
import Idealize.ShloMosaic.Lib.Pipeline.FrameBody
import Idealize.ShloMosaic.Lib.Pipeline.FrameSuffix
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffer contents when the region is entered: after the two reshapes. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The program reduces to its region continued by the later operations, entered at `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- Neither reshape writes an argument: the region finds both as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.reshape_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.reshape_writes, Finset.mem_singleton]
    repeat' apply And.intro
    all_goals exact StableHlo.devRef_ne_of_ne (by decide)))

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- What the operations after the region leave in the result buffer, from the two arrays the region wrote: minus the
    sum of the first over the larger of the sum of the second and one. -/
def tailVal (a4 a5 : FVec F S8192x1 .f32) : FVec F S_ .f32 :=
  Host.divf (Host.negf (Host.reduceAdd a4 (constant S_ .f32 0x00000000#32) reducesTo_S8192x1_S_d0_1 h_S_))
    (maximumf (Host.reduceAdd a5 (constant S_ .f32 0x00000000#32) reducesTo_S8192x1_S_d0_1 h_S_) (constant S_ .f32 0x3F800000#32))

end Cert.Kernel.Hand

end
-- ==== Proof.BodyBits.lean ====
/-
  The kernel body as a triple, and the proof data of the pipeline that runs it. The body loads its four input
  buffers whole, computes, and stores each of its two output buffers whole; so what it leaves in an output buffer
  is the stored payload, a function of the four input blocks and the grid point alone. The proof data name, per
  window and point, the block the body finds and the contents it leaves.
-/
import proofs.«138464_j23570780520482_1_alg».proof.Proof.EntryBits
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's accesses: each buffer whole -/

abbrev rA : Rect S128x128 := Rect.unit (s := S128x128) ![0, 0] S128x128.size inb_S128x128_S128x128_0_0
abbrev rB : Rect S8192x128 := Rect.unit (s := S8192x128) ![0, 0] S8192x128.size inb_S8192x128_S8192x128_0_0
abbrev rC : Rect S128x1 := Rect.unit (s := S128x1) ![0, 0] S128x1.size inb_S128x1_S128x1_0_0
abbrev rD : Rect S1x8192 := Rect.unit (s := S1x8192) ![0, 0] S1x8192.size inb_S1x8192_S1x8192_0_0

theorem zero2 : (![0, 0] : Fin 2 → Nat) = fun _ => 0 := by funext a; fin_cases a <;> rfl

/-! ## What the body leaves in each output buffer -/

/-- The first output buffer after the body: its one whole-buffer store, over the loaded inputs. -/
def out4 (i : grid0.Coords) (x0 : Vec F S128x128 .f32) (x1 : Vec F S8192x128 .f32) (x2 : Vec F S128x1 .i32) (x3 : Vec F S1x8192 .i32) : Vec F S128x1 .f32 :=
  View.canon [⟨rC, k0_pay3 (k0_pay7 i (View.ld x0 rA) (View.ld x1 rB) (View.ld x2 rC) (View.ld x3 rD)) (k0_pay8 i (View.ld x2 rC) (View.ld x3 rD))⟩]

/-- The second output buffer after the body. -/
def out5 (i : grid0.Coords) (x2 : Vec F S128x1 .i32) (x3 : Vec F S1x8192 .i32) : Vec F S128x1 .f32 :=
  View.canon [⟨rC, k0_pay4 (k0_pay8 i (View.ld x2 rC) (View.ld x3 rD))⟩]

/-- A whole-buffer store leaves its payload, a whole-buffer load reads the contents. -/
theorem out4_eq (i : grid0.Coords) (x0 : Vec F S128x128 .f32) (x1 : Vec F S8192x128 .f32) (x2 : Vec F S128x1 .i32) (x3 : Vec F S1x8192 .i32) :
    out4 i x0 x1 x2 x3 = k0_pay3 (k0_pay7 i x0 x1 x2 x3) (k0_pay8 i x2 x3) := by
  unfold out4
  rw [View.canon_unit_zero zero2]
  simp only [View.ld_unit_zero (S := S128x128) zero2, View.ld_unit_zero (S := S8192x128) zero2,
    View.ld_unit_zero (S := S128x1) zero2, View.ld_unit_zero (S := S1x8192) zero2]

theorem out5_eq (i : grid0.Coords) (x2 : Vec F S128x1 .i32) (x3 : Vec F S1x8192 .i32) :
    out5 i x2 x3 = k0_pay4 (k0_pay8 i x2 x3) := by
  unfold out5
  rw [View.canon_unit_zero zero2]
  simp only [View.ld_unit_zero (S := S128x1) zero2, View.ld_unit_zero (S := S1x8192) zero2]

/-- Each store covers its buffer. -/
theorem coverC (p0 : Vec F S128x1 .f32) (y : S128x1.Idx) :
    ∃ pc ∈ ([⟨rC, p0⟩] : List (View.Piece (Elt F) S128x1 .f32)), y ∈ pc.1.set :=
  ⟨_, List.mem_singleton_self _, View.mem_set_unit_zero zero2 inb_S128x1_S128x1_0_0 y⟩

/-! ## The body's triple -/

set_option maxHeartbeats 1000000 in
/-- The body on whole buffers, the inputs' at read contents and the outputs' at anything, runs to the continuation
    holding the inputs' as they were and each output's at the payload stored over the inputs'. -/
theorem sound_kernel (c : Dev nD) (E : Set ℕ) (i : grid0.Coords)
    (arg1 : Memref sig .tc .vmem S128x128 .f32) (harg1 : arg1.IsWhole) (arg2 : Memref sig .tc .vmem S8192x128 .f32) (harg2 : arg2.IsWhole)
    (arg3 : Memref sig .tc .vmem S128x1 .i32) (harg3 : arg3.IsWhole) (arg4 : Memref sig .tc .vmem S1x8192 .i32) (harg4 : arg4.IsWhole)
    (arg5 : Memref sig .tc .vmem S128x1 .f32) (harg5 : arg5.IsWhole) (arg6 : Memref sig .tc .vmem S128x1 .f32) (harg6 : arg6.IsWhole)
    (x0 : Vec F S128x128 .f32) (x1 : Vec F S8192x128 .f32) (x2 : Vec F S128x1 .i32) (x3 : Vec F S1x8192 .i32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (out4 i x0 x1 x2 x3) ∗ owns (c : Thread nD τ) arg6 fullShare (out5 i x2 x3)) -∗ K ⟨⟩))
      ⊢ wp frame (wpE (defs₀ (F := F)) Variants.none c none) E (cc0__contrastive_kernel i arg1 harg1 arg2 harg2 arg3 harg3 arg4 harg4 arg5 harg5 arg6 harg6) K := by
  simp only [cc0__contrastive_kernel_eq_skeleton]; unfold cc0__contrastive_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (coverC _)
  iexists _; isplitr
  swap; · iexact H5
  ipureintro
  exact View.read_writes_eq_canon _ _ _ (coverC _)

/-! ## What the body finds in each input buffer -/

/-- An input window's current staging buffer holds its block at every point, fetched there or not, for any proof
    data whose array is the region-entry contents and whose body leaves the block in place: where the window is
    not fetched its block index has not moved since the point before. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The pipeline's proof data -/

/-- The proof data of the pipeline on core `c`: the arrays as the region finds them; after the body at point `t`
    each input's buffer at its block and each output's at the payload stored over the input blocks; the scoped
    rest and the generator register untouched; nothing owed. The two windows on the embeddings' array hold half of
    it each, every other window all of its array. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => out4 (grid0.coords t) (iblk m c 0 t) (iblk m c 1 t) (iblk m c 2 t) (iblk m c 3 t)
    | ⟨5, _⟩ => out5 (grid0.coords t) (iblk m c 2 t) (iblk m c 3 t)
  Φ _ := Pipeline.ΦA spec0 c
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
  owed _ := 0

/-- The proof data's arrays are the region-entry contents. -/
theorem A_eq (c : Dev nD) (w : Fin cfg0.W) : (dats m 0 c).A w = V m c (Pipeline.arrRef spec0 w) := by
  dsimp only [dats]

/-- The shares, window by window. -/
theorem q0_0 (c : Dev nD) : (dats m 0 c).q 0 = fullShare.left := by dsimp only [dats]
theorem q0_1 (c : Dev nD) : (dats m 0 c).q 1 = fullShare.right := by dsimp only [dats]
theorem q0_2 (c : Dev nD) : (dats m 0 c).q 2 = fullShare := by dsimp only [dats]
theorem q0_3 (c : Dev nD) : (dats m 0 c).q 3 = fullShare := by dsimp only [dats]
theorem q0_4 (c : Dev nD) : (dats m 0 c).q 4 = fullShare := by dsimp only [dats]
theorem q0_5 (c : Dev nD) : (dats m 0 c).q 5 = fullShare := by dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t
    = out4 (grid0.coords t) (iblk m c 0 t) (iblk m c 1 t) (iblk m c 2 t) (iblk m c 3 t) := by dsimp only [dats]
theorem after0_5 (c : Dev nD) (t : Fin cfg0.N) : (dats m 0 c).after 5 t
    = out5 (grid0.coords t) (iblk m c 2 t) (iblk m c 3 t) := by dsimp only [dats]

/-- Each input's current staging buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The body at any point: the inputs' buffers hold their blocks, so the body's triple applies; the invariant and
    what the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel c Set.univ (grid0.coords t) _ _ _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation (c : Dev nD) : BodyObligation (dats (F := F) m 0 c) (defs₀ (F := F)) Variants.none () Set.univ := fun t => by
  rw [bigSep_W0, bigSep_W0]
  exact sound_body m c t

end Cert.Kernel.Hand

end
-- ==== Proof.SharesBits.lean ====
/-
  The embeddings' array is handed to the kernel twice: as the tile of query rows (window 0) and whole (window 1). The two
  input windows hold it at the two halves of the full share; together the six windows' arrays are the five distinct
  buffers behind them, each held whole.
-/
import proofs.«138464_j23570780520482_1_alg».proof.Proof.EntryBits

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The windows' arrays: the embeddings (twice), the two reshaped label arrays, the two results. -/
theorem arrRefs_eq : Finset.univ.image (Pipeline.arrRef spec0) = [main_arg0, main_v0, main_v1, main_v2_0, main_v2_1].toFinset := by decide

/-- The six windows' arrays at contents read off one valuation of the buffers are the five distinct buffers at it: the
    embeddings' two half shares join to the full share and split again. -/
theorem arrays_iff (c : Dev nD) (dat : Dat τ (Elt F) Unit ℕ (UR sig nD τ) ℕ cfg0 c)
    (hq0 : dat.q 0 = fullShare.left) (hq1 : dat.q 1 = fullShare.right) (hq2 : dat.q 2 = fullShare) (hq3 : dat.q 3 = fullShare)
    (Vf : (b : Ref sig .tc) → Buf (Elt F) ((c.tc : Thread nD τ).loc b)) :
    (dat.arrays (fun w => Vf (Pipeline.arrRef spec0 w)) : sProp 𝕄) ⊣⊢ Pipeline.arrBufs spec0 c Vf := by
  have s0 : dat.share 0 = fullShare.left := hq0
  have s1 : dat.share 1 = fullShare.right := hq1
  have s2 : dat.share 2 = fullShare := hq2
  have s3 : dat.share 3 = fullShare := hq3
  have s4 : dat.share 4 = fullShare := rfl
  have s5 : dat.share 5 = fullShare := rfl
  unfold Dat.arrays Pipeline.arrBufs
  rw [bigSep_W0, bigSep_eq_bigSepL_of_eq _ arrRefs_eq (by decide)]
  simp only [bigSepL_cons_cons, bigSepL_singleton, s0, s1, s2, s3, s4, s5, (arr_whole0 0).set_eq_univ, (arr_whole0 1).set_eq_univ, (arr_whole0 2).set_eq_univ, (arr_whole0 3).set_eq_univ, (arr_whole0 4).set_eq_univ, (arr_whole0 5).set_eq_univ]
  show _ ⊣⊢ iprop((((c.tc : Thread nD τ).loc main_arg0) ↦{fullShare} Vf main_arg0) ∗ (((c.tc : Thread nD τ).loc main_v0) ↦{fullShare} Vf main_v0)
    ∗ (((c.tc : Thread nD τ).loc main_v1) ↦{fullShare} Vf main_v1) ∗ (((c.tc : Thread nD τ).loc main_v2_0) ↦{fullShare} Vf main_v2_0)
    ∗ (((c.tc : Thread nD τ).loc main_v2_1) ↦{fullShare} Vf main_v2_1))
  refine ⟨?_, ?_⟩
  · iintro ⟨H0, H1, H2, H3, H4, H5⟩
    isplitl [H0 H1]
    · iapply (pointsTo_share (PosShare.mem_left_op_right fullShare)).2
      isplitl [H0]
      · iexact H0
      · iexact H1
    isplitl [H2]; · iexact H2
    isplitl [H3]; · iexact H3
    isplitl [H4]; · iexact H4
    iexact H5
  · iintro ⟨H0, H2, H3, H4, H5⟩
    have hs : ((((c.tc : Thread nD τ).loc main_arg0) ↦{fullShare} Vf main_arg0) : sProp 𝕄)
        ⊣⊢ iprop((((c.tc : Thread nD τ).loc main_arg0) ↦{fullShare.left} Vf main_arg0) ∗ (((c.tc : Thread nD τ).loc main_arg0) ↦{fullShare.right} Vf main_arg0)) :=
      pointsTo_share (PosShare.mem_left_op_right fullShare)
    ihave H01 := hs.1 $$ H0
    icases H01 with ⟨H0, H1⟩
    isplitl [H0]; · iexact H0
    isplitl [H1]; · iexact H1
    isplitl [H2]; · iexact H2
    isplitl [H3]; · iexact H3
    isplitl [H4]; · iexact H4
    iexact H5

end Cert.Kernel.Hand
end
-- ==== Proof.TailRunBits.lean ====
/-
  The operations after the region, run from what the region leaves: the two sums, the negation, the maximum and the
  quotient read the two result arrays and write their own scalars; every window's array ends as the region left it.
-/
import proofs.«138464_j23570780520482_1_alg».proof.Proof.SharesBits

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The buffers' contents when the region is left: as it found them, the two results at what the pipeline wrote back. -/
def Wv (c : Dev nD) (dat : Dat τ (Elt F) Unit ℕ (UR sig nD τ) ℕ cfg0 c) : Valuation τ sig (Elt F) :=
  Function.update (Function.update (V0 m c) (Proc.devRef .tc main_v2_0) (dat.arrAt 4 cfg0.N)) (Proc.devRef .tc main_v2_1) (dat.arrAt 5 cfg0.N)

/-- Every window's array after the last write-back is that valuation at the array's buffer: an input is never written,
    a result is what the pipeline wrote. -/
theorem Wv_arr (c : Dev nD) (dat : Dat τ (Elt F) Unit ℕ (UR sig nD τ) ℕ cfg0 c) (hA : ∀ w, dat.A w = V m c (Pipeline.arrRef spec0 w)) :
    ∀ w, dat.arrAt w cfg0.N = Wv m c dat (Proc.devRef .tc (Pipeline.arrRef spec0 w)) := by
  have hin : ∀ (w : Fin 6), (cfg0.win w).isOut = false → Pipeline.arrRef spec0 w ≠ main_v2_0 → Pipeline.arrRef spec0 w ≠ main_v2_1 →
      dat.arrAt w cfg0.N = Wv m c dat (Proc.devRef .tc (Pipeline.arrRef spec0 w)) := by
    intro w hw h0 h1
    rw [Pipeline.Dat.arrAt_in (dat := dat) w hw, hA]
    unfold Wv
    rw [Function.update_of_ne (StableHlo.devRef_ne_of_ne h1), Function.update_of_ne (StableHlo.devRef_ne_of_ne h0)]
  have h4 : dat.arrAt 4 cfg0.N = Wv m c dat (Proc.devRef .tc main_v2_0) := by
    unfold Wv
    rw [Function.update_of_ne (StableHlo.devRef_ne_of_ne (by decide)), Function.update_self]
  have h5 : dat.arrAt 5 cfg0.N = Wv m c dat (Proc.devRef .tc main_v2_1) := by
    unfold Wv
    rw [Function.update_self]
  exact fun
    | 0 => hin 0 rfl (by decide) (by decide)
    | 1 => hin 1 rfl (by decide) (by decide)
    | 2 => hin 2 rfl (by decide) (by decide)
    | 3 => hin 3 rfl (by decide) (by decide)
    | 4 => h4
    | 5 => h5
    | ⟨_ + 6, h⟩ => absurd h (Nat.not_lt.2 (Nat.le_add_left _ _))

set_option backward.isDefEq.respectTransparency.types false in
/-- The later operations, from the region's exit: holding the windows' arrays as the region left them and the other
    buffers as it found them, they run to their end, the arrays untouched and the other buffers at the operations'
    results over the exit contents. -/
theorem tail_run (c : Dev nD) (dat : Dat τ (Elt F) Unit ℕ (UR sig nD τ) ℕ cfg0 c)
    (hq0 : dat.q 0 = fullShare.left) (hq1 : dat.q 1 = fullShare.right) (hq2 : dat.q 2 = fullShare) (hq3 : dat.q 3 = fullShare)
    (hA : ∀ w, dat.A w = V m c (Pipeline.arrRef spec0 w)) (Q' : PUnit → sProp 𝕄) :
    iprop((iprop(dat.arrays (dat.arrAt · cfg0.N)
              ∗ Pipeline.unscopedRest spec0 c (fun b => StableHlo.after hostOps1 (Wv m c dat) (Proc.devRef .tc b))) -∗ Q' ⟨⟩)
        ∗ boundary (c.tc : Thread nD τ) ∗ dat.arrays (dat.arrAt · cfg0.N) ∗ Pipeline.unscopedRest spec0 c (V m c))
      ⊢ wp frame (wpE (defs (F := F)) (Variants.lift Variants.none) (c.tc : Thread nD τ) none) Set.univ
          (Pipeline.chain [StableHlo.seq hostOps1]) Q' := by
  classical
  -- no array's buffer is among the other unscoped buffers
  have hdisj : Disjoint (Finset.univ.image (Pipeline.arrRef spec0)) (Pipeline.restRefsP sig Pipeline.Prefetch.none spec0) :=
    Finset.disjoint_left.mpr fun b hb hr => (Finset.mem_sdiff.mp (Finset.mem_sdiff.mp hr).1).2 hb
  -- those buffers held at any contents: the arrays' distinct buffers and the other unscoped buffers
  have hheld : ∀ X : Valuation τ sig (Elt F),
      (StableHlo.held (c.tc : Thread nD τ) (Pipeline.tailRefs sig Pipeline.Prefetch.none spec0) X : sProp 𝕄)
        = iprop(Pipeline.arrBufs spec0 c (fun b => X (Proc.devRef .tc b)) ∗ Pipeline.unscopedRest spec0 c (fun b => X (Proc.devRef .tc b))) := by
    intro X
    rw [← Pipeline.unscopedRestP_none]
    unfold StableHlo.held Pipeline.tailRefs Pipeline.arrBufs Pipeline.unscopedRestP
    rw [bigSep_map, bigSep_union hdisj]
    rfl
  -- the arrays as the region left them are the exit contents at their buffers
  have harr : (dat.arrays (dat.arrAt · cfg0.N) : sProp 𝕄)
      = dat.arrays (fun w => (fun b : Ref sig .tc => Wv m c dat (Proc.devRef .tc b)) (Pipeline.arrRef spec0 w)) :=
    congrArg dat.arrays (funext (Wv_arr m c dat hA))
  -- the other buffers are as the region found them
  have hrest : (Pipeline.unscopedRest spec0 c (V m c) : sProp 𝕄)
      = Pipeline.unscopedRest spec0 c (fun b => Wv m c dat (Proc.devRef .tc b)) := by
    unfold Pipeline.unscopedRest
    refine bigSep_congr fun b hb => ?_
    have hb' := (Finset.mem_sdiff.mp hb).2
    have h0 : b ≠ main_v2_0 := fun e => hb' (Finset.mem_image.mpr ⟨4, Finset.mem_univ _, e.symm⟩)
    have h1 : b ≠ main_v2_1 := fun e => hb' (Finset.mem_image.mpr ⟨5, Finset.mem_univ _, e.symm⟩)
    have e : Wv m c dat (Proc.devRef .tc b) = V0 m c (Proc.devRef .tc b) := by
      unfold Wv
      rw [Function.update_of_ne (StableHlo.devRef_ne_of_ne h1), Function.update_of_ne (StableHlo.devRef_ne_of_ne h0)]
    show (((c.tc : Thread nD τ).loc b) ↦{fullShare} V0 m c (Proc.devRef .tc b) : sProp 𝕄)
      = (((c.tc : Thread nD τ).loc b) ↦{fullShare} Wv m c dat (Proc.devRef .tc b))
    rw [e]
  -- the later operations: within those buffers, allocating nothing, writing no array
  have hsub : ∀ ops ∈ ([hostOps1] : List (List (HloOp τ sig (Elt F)))), ∀ op ∈ ops,
      op.bufs ⊆ Pipeline.tailRefs sig Pipeline.Prefetch.none spec0 := by
    rw [Pipeline.tailRefs_none spec0 winFacts₀0.arr_unscoped]
    intro ops hops op hop
    simp only [List.mem_cons, List.mem_nil_iff, _root_.or_false] at hops
    rcases hops with rfl
    exact Pipeline.sub_ucRefs op ((List.forall_iff_forall_mem.mp hostOps1_sub) op hop)
  have hfresh : ∀ ops ∈ ([hostOps1] : List (List (HloOp τ sig (Elt F)))), ∀ op ∈ ops, op.fresh = ∅ := by
    intro ops hops op hop
    simp only [List.mem_cons, List.mem_nil_iff, _root_.or_false] at hops
    rcases hops with rfl
    exact (List.forall_iff_forall_mem.mp hostOps1_fresh) op hop
  have hkeep : ∀ op ∈ (hostOps1 : List (HloOp τ sig (Elt F))), ∀ w, Proc.devRef .tc (Pipeline.arrRef spec0 w) ∉ op.writes := by
    intro op hop
    simp only [hostOps1, List.mem_cons, List.mem_nil_iff, _root_.or_false] at hop
    rcases hop with rfl | rfl | rfl | rfl | rfl | rfl | rfl | rfl
    all_goals intro w; fin_cases w <;> simp only [StableHlo.nullary_writes, StableHlo.unary_writes, StableHlo.binary_writes, Finset.mem_singleton] <;> exact StableHlo.devRef_ne_of_ne (by decide)
  have hpost : (dat.arrays (fun w => (fun b : Ref sig .tc => StableHlo.after hostOps1 (Wv m c dat) (Proc.devRef .tc b)) (Pipeline.arrRef spec0 w)) : sProp 𝕄)
      = dat.arrays (fun w => (fun b : Ref sig .tc => Wv m c dat (Proc.devRef .tc b)) (Pipeline.arrRef spec0 w)) :=
    congrArg dat.arrays (funext fun w => StableHlo.after_of_forall_not_mem _ _ fun op hop => hkeep op hop w)
  have hflat : ([hostOps1] : List (List (HloOp τ sig (Elt F)))).flatten = hostOps1 := by
    simp only [List.flatten_cons, List.flatten_nil, List.append_nil]
  rw [harr, hrest]
  show _ ⊢ wp frame (wpE (Pipeline.defs pcfgs defs₀) (Variants.lift Variants.none) (c.tc : Thread nD τ) none) Set.univ
      (Pipeline.chain (([hostOps1] : List (List (HloOp τ sig (Elt F)))).map StableHlo.seq ++ [])) Q'
  iintro ⟨Hk, Hb, Ha, Hr⟩
  ihave Ha' := (arrays_iff c dat hq0 hq1 hq2 hq3 (fun b => Wv m c dat (Proc.devRef .tc b))).1 $$ Ha
  ihave Hheld := (show iprop(boundary (c.tc : Thread nD τ) ∗ Pipeline.arrBufs spec0 c (fun b => Wv m c dat (Proc.devRef .tc b))
        ∗ Pipeline.unscopedRest spec0 c (fun b => Wv m c dat (Proc.devRef .tc b)))
      ⊢ iprop(boundary (c.tc : Thread nD τ)
        ∗ (StableHlo.held (c.tc : Thread nD τ) (Pipeline.tailRefs sig Pipeline.Prefetch.none spec0) (Wv m c dat) : sProp 𝕄))
      from by rw [hheld]) $$ [Hb Ha' Hr]
  · isplitl [Hb]; · iexact Hb
    isplitl [Ha']; · iexact Ha'
    iexact Hr
  iapply (Pipeline.wp_seqs_then pcfgs defs₀ Variants.none c (Pipeline.tailRefs sig Pipeline.Prefetch.none spec0) [] [hostOps1]
    hsub hfresh (Wv m c dat)) $$ Hheld
  iintro Hb
  rw [Pipeline.chain_nil, wp_pure, hflat, hheld]
  imodintro
  iapply Hk
  icases Hb with ⟨-, Ha, Hr⟩
  isplitl [Ha]
  · ihave Ha' := (arrays_iff c dat hq0 hq1 hq2 hq3 (fun b => StableHlo.after hostOps1 (Wv m c dat) (Proc.devRef .tc b))).2 $$ Ha
    iapply (Entails.of_eq hpost)
    iexact Ha'
  · iexact Hr

end Cert.Kernel.Hand
end
-- ==== Proof.LaunchBits.lean ====
/-
  The run of the whole program from the body's obligation: the launch deals each core its buffers; the embeddings' array
  goes to the two input windows that read it at the two halves of its share; the region's invariant is the scratch-free
  rest and the generator register; the later operations run from the region's exit; at the end every window's array holds
  what the pipeline's write-backs left and every other buffer what the later operations left.
-/
import proofs.«138464_j23570780520482_1_alg».proof.Proof.TailRunBits

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- From the body's obligation at every grid point, for proof data whose arrays are the region-entry contents, whose two
    windows on the embeddings hold the two halves of the share, and whose invariant is the class's: every weakly fair
    execution terminates, each window's array at the write-backs' result, each other buffer at the later operations'. -/
theorem run_of_body
    (dats : (p : Fin 1) → (c : Dev nD) → Dat τ (Elt F) Unit ℕ (UR sig nD τ) ℕ (cfgs p) c)
    (hA : ∀ c w, (dats 0 c).A w = V m c (Pipeline.arrRef spec0 w))
    (hq0 : ∀ c, (dats 0 c).q 0 = fullShare.left) (hq1 : ∀ c, (dats 0 c).q 1 = fullShare.right)
    (hq2 : ∀ c, (dats 0 c).q 2 = fullShare) (hq3 : ∀ c, (dats 0 c).q 3 = fullShare)
    (hΦ : ∀ c t, (dats 0 c).Φ t = Pipeline.ΦA spec0 c)
    (howed : ∀ c t, (dats 0 c).owed t = 0)
    (hbody : ∀ c, Pipeline.BodyObligationLoose (dats 0 c) defs₀ Variants.none () Set.univ) :
    θ_run defs (onTc (τ := τ) (main (F := F))) ⟨m, fun _ => 0, ρ⟩ (fun r => ∀ c : Dev nD,
      (∀ w, r.2.mem ((spec0 w).arr.view.loc (c.tc : Thread nD τ)) = (dats 0 c).arrAt w cfg0.N)
      ∧ ∀ b ∈ Pipeline.restRefs sig spec0, r.2.mem ((c.tc : Thread nD τ).loc b)
          = StableHlo.after hostOps1 (Wv m c (dats 0 c)) (Proc.devRef .tc b)) := by
  classical
  exact Pipeline.θ_run_region_pf_tail (fun q => (cfgs q).toPCfg (Val := Elt F)) (fun q => (cfgs q).toPCfg_adm) dats () cellOf_inj 0
    winFacts₀0 (Pipeline.OwnSemFacts.none spec0) (Pipeline.PreFacts.none _) emb₁ defs₀ Variants.none m ρ main
    (fun _ => Pipeline.chain [StableHlo.seq hostOps1]) hbody
    block_pos0 arr_whole0 stage_whole0 howed
    (G := fun _ => iprop(emp)) (u₀ := initOf (Pipeline.cells cfgs cellOf_inj) (Pipeline.launchToks cfgs cellOf_inj))
    (hu₀ := by
      iintro Hu; imodintro
      isplitl [Hu]
      · iapply (show (ownU _ : sProp 𝕄) ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (V := V m) (hmain := hmain m Variants.none)
    (hsplit := fun c => by
      have h0 : ((dats 0 c).arrAt · 0) = fun w => V m c (Pipeline.arrRef spec0 w) := funext fun w => hA c w
      rw [h0]
      exact (arrays_iff c (dats 0 c) (hq0 c) (hq1 c) (hq2 c) (hq3 c) (V m c)).2)
    (hpf := fun _ k => k.elim0)
    (X := fun c => iprop(∃ r, prngReg c r)) (Y := fun c => iprop(∃ r, prngReg c r))
    (Z := fun c => Pipeline.unscopedRestP (Ix := Unit) (Name := ℕ) (U := UR sig nD τ) (Lvl := ℕ) Pipeline.Prefetch.none spec0 c (V m c))
    (Z' := fun c => Pipeline.unscopedRestP (Ix := Unit) (Name := ℕ) (U := UR sig nD τ) (Lvl := ℕ) Pipeline.Prefetch.none spec0 c
      (fun b => StableHlo.after hostOps1 (Wv m c (dats 0 c)) (Proc.devRef .tc b)))
    (hX := fun c => by
      iintro ⟨HU, -, -, -, Hp, -⟩; imodintro
      isplitl [Hp]; · iexists _; iexact Hp
      iexact HU)
    (hin := fun c => by
      rw [hΦ]; unfold Pipeline.ΦA
      iintro ⟨Hp, -, Hr⟩
      isplitl [Hr]; · iexact Hr
      iexact Hp)
    (hout := fun c => by
      rw [hΦ, Pipeline.ownSems0_none]; unfold Pipeline.ΦA
      iintro ⟨Hr, Hp⟩
      isplitl [Hp]; · iexact Hp
      isplitr; · iempintro
      iexact Hr)
    (htail := fun c Q' => by
      rw [Pipeline.unscopedRestP_none, Pipeline.unscopedRestP_none]
      exact tail_run m c (dats 0 c) (hq0 c) (hq1 c) (hq2 c) (hq3 c) (hA c) Q')
    (QY := fun c s => ∀ b ∈ Pipeline.restRefsP sig Pipeline.Prefetch.none spec0, s.mem ((c.tc : Thread nD τ).loc b)
        = StableHlo.after hostOps1 (Wv m c (dats 0 c)) (Proc.devRef .tc b))
    (hY := fun c s' => by
      iintro ⟨-, HU, HSI⟩
      unfold Pipeline.unscopedRestP
      imodintro
      iapply (pointsTo_read_all (Pipeline.restRefsP sig Pipeline.Prefetch.none spec0) (fun b => (c.tc : Thread nD τ).loc b)
        (fun b => StableHlo.after hostOps1 (Wv m c (dats 0 c)) (Proc.devRef .tc b)) s')
      isplitl [HU] <;> iassumption)
    (hQ := fun s h c => ⟨(h c).1, Pipeline.rest_of_restP Pipeline.Prefetch.none spec0 ((cfgs 0).toPCfg_adm (Val := Elt F)).1 c _ s
      (fun k => k.elim0) (fun k => k.elim0) (h c).2.2⟩)

end Cert.Kernel.Hand
end
-- ==== Proof.ReadBackBits.lean ====
/-
  The program's final memory read at the three buffers the claims name. The embeddings are an input window's array:
  the pipeline never writes them and the region found them as launched. The labels are no window's array and no later
  operation writes them. The result buffer holds the later operations' term over the two arrays the region wrote back.
-/
import proofs.«138464_j23570780520482_1_alg».proof.Proof.LaunchBits
import Idealize.ShloMosaic.Lib.StableHlo.Run

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- No operation after the region writes the labels, and the region's exit contents leave them as launched. -/
theorem after_arg1 (c : Dev nD) (dat : Dat τ (Elt F) Unit ℕ (UR sig nD τ) ℕ cfg0 c) :
    StableHlo.after hostOps1 (Wv m c dat) (Proc.devRef .tc main_arg1) = m ((c : Thread nD τ).loc main_arg1) := by
  rw [StableHlo.after_of_forall_not_mem (b := Proc.devRef .tc main_arg1) _ _ (List.forall_iff_forall_mem.mp (by
      simp only [hostOps1, List.Forall, StableHlo.nullary_writes, StableHlo.unary_writes, StableHlo.binary_writes,
        Finset.mem_singleton]
      repeat' apply And.intro
      all_goals exact StableHlo.devRef_ne_of_ne (by decide)))]
  unfold Wv
  rw [Function.update_of_ne (StableHlo.devRef_ne_of_ne (by decide)), Function.update_of_ne (StableHlo.devRef_ne_of_ne (by decide))]
  exact V_main_arg1 m c

/-- The region's exit contents at its two result arrays. -/
theorem Wv_v2_0 (c : Dev nD) (dat : Dat τ (Elt F) Unit ℕ (UR sig nD τ) ℕ cfg0 c) :
    Wv m c dat (Proc.devRef .tc main_v2_0) = dat.arrAt 4 cfg0.N := by
  unfold Wv
  rw [Function.update_of_ne (StableHlo.devRef_ne_of_ne (by decide))]
  exact Function.update_self _ _ _
theorem Wv_v2_1 (c : Dev nD) (dat : Dat τ (Elt F) Unit ℕ (UR sig nD τ) ℕ cfg0 c) :
    Wv m c dat (Proc.devRef .tc main_v2_1) = dat.arrAt 5 cfg0.N := by
  unfold Wv
  exact Function.update_self _ _ _

/-- The result buffer after the later operations: their term over the two arrays the region wrote. -/
theorem after_v7 (c : Dev nD) (dat : Dat τ (Elt F) Unit ℕ (UR sig nD τ) ℕ cfg0 c) :
    StableHlo.after hostOps1 (Wv m c dat) (Proc.devRef .tc main_v7) = tailVal (dat.arrAt 4 cfg0.N) (dat.arrAt 5 cfg0.N) := by
  show StableHlo.after hostOps1 _ (Proc.devRef .tc main_v7) = _
  after_results
  rw [Wv_v2_0, Wv_v2_1]
  rfl

/-- The program's run, read at the result buffer and at the two arguments: the result is the later operations' term
    over the two arrays the region wrote, and both arguments end as launched. -/
theorem run_value (m : (ℓ : Loc nD τ sig) → Buf (Elt F) ℓ) (ρ : Dev nD → PrngReg)
    (dats : (p : Fin 1) → (c : Dev nD) → Dat τ (Elt F) Unit ℕ (UR sig nD τ) ℕ (cfgs p) c)
    (hA : ∀ c w, (dats 0 c).A w = V m c (Pipeline.arrRef spec0 w))
    (hq0 : ∀ c, (dats 0 c).q 0 = fullShare.left) (hq1 : ∀ c, (dats 0 c).q 1 = fullShare.right)
    (hq2 : ∀ c, (dats 0 c).q 2 = fullShare) (hq3 : ∀ c, (dats 0 c).q 3 = fullShare)
    (hΦ : ∀ c t, (dats 0 c).Φ t = Pipeline.ΦA spec0 c) (howed : ∀ c t, (dats 0 c).owed t = 0)
    (hbody : ∀ c, Pipeline.BodyObligationLoose (dats 0 c) defs₀ Variants.none () Set.univ) :
    θ_run defs (onTc (τ := τ) (main (F := F))) ⟨m, fun _ => 0, ρ⟩ (fun r => ∀ c : Dev nD,
      r.2.mem ((c.tc : Thread nD τ).loc main_v7) = tailVal ((dats 0 c).arrAt 4 cfg0.N) ((dats 0 c).arrAt 5 cfg0.N)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨((h c).2 main_v7 (Pipeline.mem_restRefs_of main_v7 (by decide) (by decide))).trans (after_v7 m c (dats 0 c)),
     ((h c).1 0).trans (((dats 0 c).arrAt_in 0 rfl _).trans ((hA c 0).trans (V_main_arg0 m c))),
     ((h c).2 main_arg1 (Pipeline.mem_restRefs_of main_arg1 (by decide) (by decide))).trans (after_arg1 m c (dats 0 c))⟩)
    (run_of_body m ρ dats hA hq0 hq1 hq2 hq3 hΦ howed hbody)

end Cert.Kernel.Hand
end
-- ==== Proof.RefSim.lean ====
/-
  The reference's logits and row log-softmax, stage by stage, read at an index as the specification's functions:
  the Gram entry over the temperature with the diagonal at the fill is `Spec.sim`, the row maximum `Spec.rowMax`
  (a maximum with the fold's own start is the fold), the shifted logit, the row's sum of exponentials `Spec.denom`
  and the log-probability `Spec.logp`.
-/
import proofs.«138464_j23570780520482_1_alg».proof.Proof.Spec
import proofs.«138464_j23570780520482_1_alg».proof.Proof.RefRead
import Idealize.ShloMosaic.PureOps.Reduce
import Idealize.ShloMosaic.PureOps.Ideal.Laws
import Idealize.ShloMosaic.Lib.StableHlo.Predicate
import Mathlib.Data.Finset.Fold

noncomputable section

namespace Cert.ReferenceIdeal.RefValue

open Cert.ReferenceIdeal Cert.ReferenceIdeal.Gen Cert.ReferenceIdeal.ReadP Idealize.ShloMosaic Idealize.ShloMosaic.ValueIdx

/-- The two argument arrays' types. -/
abbrev EArr : Type := (⟨S8192x128, .f32⟩ : BufTy).Contents (Elt Ideal)
abbrev LArr : Type := (⟨S8192, .i32⟩ : BufTy).Contents (Elt Ideal)

variable (e : EArr)

/-! ## The diagonal -/

/-- Two row numbers below 8192 give the same 32-bit word only when equal. -/
theorem ofNat_inj (i j : Fin 8192) : BitVec.ofNat 32 i.val = BitVec.ofNat 32 j.val ↔ i = j := by
  constructor
  · intro h
    have h2 := congrArg BitVec.toNat h
    simp only [BitVec.toNat_ofNat] at h2
    apply Fin.ext
    have := i.isLt; have := j.isLt
    omega
  · rintro rfl; rfl

/-- The diagonal's bit at `(i, j)` is set exactly when `i = j`. -/
theorem diag_iff (i j : Fin 8192) : val_main_v8 (F := Ideal) (ix2 i j) = 1#1 ↔ i = j := by
  rw [val_main_v8_apply, val_main_v7_apply, val_main_v4_apply, val_main_v6_apply, val_main_c_apply, val_main_v5_apply,
    StableHlo.Predicate.cmpi_eq_iff]
  show BitVec.ofNat 32 i.val + 0#32 = BitVec.ofNat 32 j.val ↔ i = j
  rw [BitVec.add_zero]
  exact ofNat_inj i j

/-! ## The logits -/

theorem lidx_eq (i j : Fin 8192) (k : Fin 128) : lidx_main_v1 (ix2 i j) k = ix2 i k :=
  funext fun a => by match a with | ⟨0, _⟩ => rfl | ⟨1, _⟩ => rfl

theorem ridx_eq (i j : Fin 8192) (k : Fin 128) : idx_main_v0 (ridx_main_v1 (ix2 i j) k) = ix2 j k :=
  funext fun a => by match a with | ⟨0, _⟩ => rfl | ⟨1, _⟩ => rfl

/-- The quotient stage at `(i, j)`: the Gram entry over the temperature. -/
theorem quot_eq (i j : Fin 8192) :
    val_main_v3 (F := Ideal) e (ix2 i j) = Ideal.div (Cert.Spec.gram e i j) Cert.Spec.temp := by
  rw [val_main_v3_apply, val_main_v1_apply, val_main_v2_apply, val_main_cst_apply]
  simp only [val_main_v0_apply, lidx_eq, ridx_eq]
  rfl

/-- The logit stage at `(i, j)` is the specification's. -/
theorem sim_eq (i j : Fin 8192) : val_main_v9 (F := Ideal) e (ix2 i j) = Cert.Spec.sim e i j := by
  rw [val_main_v9_apply, quot_eq, val_main_call0_v1_apply, val_main_call0_v0_apply, val_main_cst_0_apply]
  unfold Cert.Spec.sim
  by_cases h : i = j
  · rw [(diag_iff i j).2 h, select_one, if_pos h]; rfl
  · rw [eq_zero_of_ne_one (fun hb => h ((diag_iff i j).1 hb)), select_zero, if_neg h]

/-! ## The row maximum -/

/-- The logits' array drops its second axis onto the rows' array. -/
theorem reduces_cols : S8192x8192.Reduces [1] S8192 := by decide

theorem lift_eq (i j : Fin 8192) : reduces_cols.lift (ix1 i) j = ix2 i j :=
  funext fun a => Fin.ext (by match a with | ⟨0, _⟩ => rfl | ⟨1, _⟩ => rfl)

/-- The fold stage at row `i`: the maximum over the row's logits from minus infinity. -/
theorem fold_eq (i : Fin 8192) : val_main_call1_v0 (F := Ideal) e (ix1 i) = Cert.Spec.rowMax e i := by
  unfold val_main_call1_v0
  rw [Host.reduce_eq_fold_single FloatOps.maximumf _ _ reducesTo_S8192x8192_S8192_d1 reduces_cols h_S_]
  unfold Cert.Spec.rowMax
  have hf : (val_main_v9 (F := Ideal) e ∘ reduces_cols.lift (ix1 i)) = fun j : Fin 8192 => Cert.Spec.sim e i j :=
    funext fun j => (congrArg (val_main_v9 (F := Ideal) e) (lift_eq i j)).trans (sim_eq e i j)
  rw [hf]
  rfl

/-- The row maximum stage: the maximum of minus infinity and the fold is the fold. -/
theorem rowMax_eq (i : Fin 8192) : val_main_call1_v2 (F := Ideal) e (ix1 i) = Cert.Spec.rowMax e i := by
  rw [val_main_call1_v2_apply, val_main_call1_v1_apply, val_main_call1_cst_0_apply, fold_eq]
  show max Cert.Spec.negInf (Cert.Spec.rowMax e i) = _
  exact max_eq_right (by unfold Cert.Spec.rowMax; exact (Finset.le_fold_max _).2 (Or.inl le_rfl))

/-! ## The shifted logits, the sum of exponentials, the log-probability -/

theorem col_eq (i j : Fin 8192) : idx_main_call1_v3 (idx_main_call1_v4 (ix2 i j)) = ix1 i :=
  funext fun a => by match a with | ⟨0, _⟩ => rfl

theorem shifted_eq (i j : Fin 8192) :
    val_main_call1_v5 (F := Ideal) e (ix2 i j) = Cert.Spec.sim e i j - Cert.Spec.rowMax e i := by
  rw [val_main_call1_v5_apply, sim_eq, val_main_call1_v4_apply, val_main_call1_v3_apply, col_eq, rowMax_eq]
  rfl

theorem row_eq (i k : Fin 8192) : idx_main_call1_v7 (ix1 i) k = ix2 i k :=
  funext fun a => by match a with | ⟨0, _⟩ => rfl | ⟨1, _⟩ => rfl

theorem denom_eq (i : Fin 8192) : val_main_call1_v7 (F := Ideal) e (ix1 i) = Cert.Spec.denom e i := by
  rw [val_main_call1_v7_apply, val_main_call1_cst_1_apply]
  simp only [row_eq, val_main_call1_v6_apply, shifted_eq]
  rw [Ideal.ofBits_def, Ideal.ofBits_zero_f32, zero_add]
  rfl

theorem col_eq' (i j : Fin 8192) : idx_main_call1_v8 (idx_main_call1_v10 (ix2 i j)) = ix1 i :=
  funext fun a => by match a with | ⟨0, _⟩ => rfl

/-- The log-softmax stage at `(i, j)` is the specification's log-probability. -/
theorem logp_eq (i j : Fin 8192) : val_main_v17 (F := Ideal) e (ix2 i j) = Cert.Spec.logp e i j := by
  rw [val_main_v17_apply, shifted_eq, val_main_call1_v10_apply, val_main_call1_v9_apply, val_main_call1_v8_apply, col_eq',
    denom_eq]
  rfl

end Cert.ReferenceIdeal.RefValue

end
-- ==== Proof.RefCount.lean ====
/-
  The reference's integer stages read as the specification's counts: the positives' mask at `(i, j)` is `Spec.pos`, the
  32-bit sum of a row's widened mask bits is the number of its positives (at most 8192, so the sum does not wrap and the
  word reads the same signed and unsigned), the comparison with zero is "the row has a positive", the maximum with one and
  the conversion give the divisor as a natural number, and the sum of the rows' flags is the number of rows with a positive.
-/
import proofs.«138464_j23570780520482_1_alg».proof.Proof.Spec
import proofs.«138464_j23570780520482_1_alg».proof.Proof.RefSim
import Idealize.ShloMosaic.PureOps.Reduce
import Idealize.ShloMosaic.Lib.StableHlo.Predicate

noncomputable section

namespace Cert.ReferenceIdeal.RefValue

open Cert.ReferenceIdeal Cert.ReferenceIdeal.Gen Cert.ReferenceIdeal.ReadP Idealize.ShloMosaic Idealize.ShloMosaic.ValueIdx
open Idealize.ShloMosaic.StableHlo

variable (l : LArr)

/-! ## The positives' mask -/

/-- On one-bit words: `a ∧ ¬b` is set exactly when `a` is and `b` is not. -/
theorem and_not_bit (a b : BitVec 1) : IntOp.andi a (~~~b) = 1#1 ↔ a = 1#1 ∧ ¬ b = 1#1 := by
  rcases BitVec.eq_zero_or_eq_one a with rfl | rfl <;> rcases BitVec.eq_zero_or_eq_one b with rfl | rfl <;> decide

theorem labRow_eq (i j : Fin 8192) : idx_main_v10 (idx_main_v12 (ix2 i j)) = ix1 j :=
  funext fun a => by match a with | ⟨0, _⟩ => rfl

theorem labCol_eq (i j : Fin 8192) : idx_main_v11 (idx_main_v13 (ix2 i j)) = ix1 i :=
  funext fun a => by match a with | ⟨0, _⟩ => rfl

/-- The mask's bit at `(i, j)` is set exactly when `j` is a positive of `i`. -/
theorem pos_iff (i j : Fin 8192) : val_main_v16 (F := Ideal) l (ix2 i j) = 1#1 ↔ Cert.Spec.pos l i j := by
  rw [val_main_v16_apply, val_main_v15_apply, and_not_bit, val_main_v14_apply, val_main_v12_apply, val_main_v10_apply,
    val_main_v13_apply, val_main_v11_apply, labRow_eq, labCol_eq, Predicate.cmpi_eq_iff, diag_iff]
  rfl

/-! ## A row's number of positives -/

theorem ij_eq (i j : Fin 8192) : (Predicate.ij i j : S8192x8192.Idx) = ix2 i j :=
  funext fun a => by match a with | ⟨0, _⟩ => rfl | ⟨1, _⟩ => rfl

/-- The count word of row `i`, read unsigned, is the number of the row's positives. -/
theorem count_toNat (i : Fin 8192) : (val_main_v19 (F := Ideal) l (ix1 i)).toNat = Cert.Spec.posCount l i := by
  unfold val_main_v19 val_main_v18 val_main_c_1 Cert.Spec.posCount
  rw [Predicate.toNat_reduce_count_cols (n := 8192) (m := 8192) (by decide) (val_main_v16 (F := Ideal) l) natLt_1_32
    reducesTo_S8192x8192_S8192_d1 h_S_ (ix1 i)]
  refine congrArg Finset.card (Finset.filter_congr fun q _ => ?_)
  show val_main_v16 (F := Ideal) l (Predicate.ij i q) = 1#1 ↔ _
  rw [ij_eq]
  exact pos_iff l i q

theorem posCount_le (i : Fin 8192) : Cert.Spec.posCount l i ≤ 8192 := by
  unfold Cert.Spec.posCount
  exact (Finset.card_le_univ _).trans (by rw [Fintype.card_fin])

theorem count_lt (i : Fin 8192) : (val_main_v19 (F := Ideal) l (ix1 i)).toNat < 2 ^ 31 := by
  rw [count_toNat]; have := posCount_le l i; omega

/-- The flag of row `i` is set exactly when the row has a positive. -/
theorem has_iff (i : Fin 8192) : val_main_v23 (F := Ideal) l (ix1 i) = 1#1 ↔ 0 < Cert.Spec.posCount l i := by
  rw [val_main_v23_apply, val_main_v22_apply, val_main_c_4_apply,
    Predicate.sgt_iff_toNat (count_lt l i) (by decide), count_toNat]
  rfl

/-- The divisor word of row `i`: the larger of the count and one. -/
theorem divisor_toNat (i : Fin 8192) :
    (val_main_v25 (F := Ideal) l (ix1 i)).toNat = max (Cert.Spec.posCount l i) 1 := by
  rw [val_main_v25_apply, val_main_v24_apply, val_main_c_5_apply]
  have hc := count_toNat l i
  have hlt := count_lt l i
  generalize val_main_v19 (F := Ideal) l (ix1 i) = w at hc hlt
  unfold IntOp.maxsi
  have hs : (1#32).slt w = true ↔ 1 < w.toNat := by
    have := Predicate.slt_bool_iff_toNat (a := 1#32) (b := w) (by decide) hlt
    rw [Predicate.ofBool_eq_one_iff] at this
    exact this
  by_cases h1 : 1 < w.toNat
  · rw [if_pos (hs.2 h1), hc]; omega
  · rw [if_neg (fun h => h1 (hs.1 h))]
    show 1 = max _ 1
    omega

/-- The divisor of row `i` as an extended real. -/
theorem divisor_eq (i : Fin 8192) :
    val_main_v26 (F := Ideal) l (ix1 i) = ((max (Cert.Spec.posCount l i) 1 : ℕ) : EReal) := by
  rw [val_main_v26_apply]
  have hd := divisor_toNat l i
  have hlt : (val_main_v25 (F := Ideal) l (ix1 i)).toNat < 2 ^ 31 := by
    rw [hd]; have := posCount_le l i; omega
  show (((val_main_v25 (F := Ideal) l (ix1 i)).toInt : ℝ) : EReal) = _
  rw [Predicate.toInt_eq_toNat_of_lt hlt, hd, Int.cast_natCast, EReal.coe_natCast]

/-! ## The number of rows with a positive -/

/-- A rank-1 index set of extent 8192 is its coordinate's range. -/
def rowEquiv : S8192.Idx ≃ Fin 8192 where
  toFun j := j 0
  invFun k := ix1 k
  left_inv j := (eq_ix1 j).symm
  right_inv _ := rfl

/-- The sum of the rows' flags, read unsigned, is the number of rows with a positive. -/
theorem nHas_toNat (j : S_.Idx) : (val_main_v30 (F := Ideal) l j).toNat = Cert.Spec.nHas l := by
  classical
  unfold val_main_v30
  rw [Host.reduce_eq_fold]
  have hall : (Finset.univ.filter fun i : S8192.Idx => reducesTo_S8192_S_d0.drop i = j) = Finset.univ :=
    Finset.filter_true_of_mem fun i _ => funext fun b => b.elim0
  rw [hall]
  have hsum : ∑ i ∈ (Finset.univ : Finset S8192.Idx), (val_main_v29 (F := Ideal) l i).toNat = Cert.Spec.nHas l := by
    unfold Cert.Spec.nHas
    rw [Finset.card_filter, ← Equiv.sum_comp rowEquiv.symm]
    refine Finset.sum_congr rfl fun k _ => ?_
    show (val_main_v29 (F := Ideal) l (ix1 k)).toNat = _
    rw [val_main_v29_apply, Predicate.toNat_setWidth_bit]
    exact if_congr (has_iff l k) rfl rfl
  show (Finset.fold IntOp.addi 0#32 (val_main_v29 (F := Ideal) l) Finset.univ).toNat = _
  rw [Predicate.toNat_fold_addi _ _ (by
    rw [hsum]; unfold Cert.Spec.nHas
    exact lt_of_le_of_lt (Finset.card_le_univ _) (by rw [Fintype.card_fin]; decide)), hsum]

theorem nHas_le : Cert.Spec.nHas l ≤ 8192 := by
  unfold Cert.Spec.nHas
  exact (Finset.card_le_univ _).trans (by rw [Fintype.card_fin])

/-- The loss's divisor as an extended real. -/
theorem lossDivisor_eq (j : S_.Idx) :
    val_main_v34 (F := Ideal) l j = ((max (Cert.Spec.nHas l) 1 : ℕ) : EReal) := by
  rw [val_main_v34_apply, val_main_v33_apply, val_main_c_9_apply]
  have hc := nHas_toNat l j
  have hle := nHas_le l
  generalize val_main_v30 (F := Ideal) l j = w at hc
  have hlt : w.toNat < 2 ^ 31 := by rw [hc]; omega
  have hs : (1#32).slt w = true ↔ 1 < w.toNat := by
    have := Predicate.slt_bool_iff_toNat (a := 1#32) (b := w) (by decide) hlt
    rw [Predicate.ofBool_eq_one_iff] at this
    exact this
  have hm : (IntOp.maxsi w 1#32).toNat = max (Cert.Spec.nHas l) 1 := by
    unfold IntOp.maxsi
    by_cases h1 : 1 < w.toNat
    · rw [if_pos (hs.2 h1), hc]; omega
    · rw [if_neg (fun h => h1 (hs.1 h))]
      show 1 = max _ 1
      omega
  have hlt' : (IntOp.maxsi w 1#32).toNat < 2 ^ 31 := by rw [hm]; omega
  show (((IntOp.maxsi w 1#32).toInt : ℝ) : EReal) = _
  rw [Predicate.toInt_eq_toNat_of_lt hlt', hm, Int.cast_natCast, EReal.coe_natCast]

end Cert.ReferenceIdeal.RefValue

end
-- ==== Proof.RefValue.lean ====
/-
  The reference's result is the specification's loss. The positives' log-probabilities summed along a row are
  `Spec.posSum`, their quotient by the row's divisor selected on the row's flag is `Spec.rowMean`, the rows' means summed
  over every row, negated and divided by the number of rows with a positive (at least one) is `Spec.loss`.
-/
import proofs.«138464_j23570780520482_1_alg».proof.Proof.Spec
import proofs.«138464_j23570780520482_1_alg».proof.Proof.RefRead
import proofs.«138464_j23570780520482_1_alg».proof.Proof.RefSim
import proofs.«138464_j23570780520482_1_alg».proof.Proof.RefCount

noncomputable section

namespace Cert.ReferenceIdeal.RefValue

open Cert.ReferenceIdeal Cert.ReferenceIdeal.Gen Cert.ReferenceIdeal.ReadP Idealize.ShloMosaic Idealize.ShloMosaic.TcCoe
  Idealize.SL.Sem Idealize.ShloMosaic.ValueIdx Idealize.ShloMosaic.StableHlo

variable (e : EArr) (l : LArr)

/-! ## A row's mean over its positives -/

/-- The masked log-probability at `(i, j)`. -/
theorem masked_eq (i j : Fin 8192) :
    val_main_v20 (F := Ideal) e l (ix2 i j) = if Cert.Spec.pos l i j then Cert.Spec.logp e i j else 0 := by
  rw [val_main_v20_apply, logp_eq, val_main_call2_v1_apply, val_main_call2_v0_apply, val_main_cst_2_apply, Ideal.ofBits_def,
    Ideal.ofBits_zero_f32]
  by_cases h : Cert.Spec.pos l i j
  · rw [(pos_iff l i j).2 h, select_one, if_pos h]
  · rw [eq_zero_of_ne_one (fun hb => h ((pos_iff l i j).1 hb)), select_zero, if_neg h]

theorem rowIdx_eq (i k : Fin 8192) : idx_main_v21 (ix1 i) k = ix2 i k :=
  funext fun a => by match a with | ⟨0, _⟩ => rfl | ⟨1, _⟩ => rfl

/-- The sum of row `i`'s masked log-probabilities. -/
theorem posSum_eq (i : Fin 8192) : val_main_v21 (F := Ideal) e l (ix1 i) = Cert.Spec.posSum e l i := by
  rw [val_main_v21_apply, val_main_cst_3_apply, Ideal.ofBits_def, Ideal.ofBits_zero_f32, zero_add]
  simp only [rowIdx_eq, masked_eq]
  rfl

/-- Row `i`'s contribution. -/
theorem rowMean_eq (i : Fin 8192) : val_main_v28 (F := Ideal) e l (ix1 i) = Cert.Spec.rowMean e l i := by
  rw [val_main_v28_apply, val_main_v27_apply, posSum_eq, divisor_eq, val_main_call3_v1_apply, val_main_call3_v0_apply,
    val_main_cst_6_apply, Ideal.ofBits_def, Ideal.ofBits_zero_f32, Ideal.hostDivf_def]
  unfold Cert.Spec.rowMean
  by_cases h : 0 < Cert.Spec.posCount l i
  · rw [(has_iff l i).2 h, select_one, if_pos h]
  · rw [eq_zero_of_ne_one (fun hb => h ((has_iff l i).1 hb)), select_zero, if_neg h]

/-! ## The loss -/

/-- The rows' contributions summed over every row. -/
theorem total_eq (j : S_.Idx) :
    val_main_v31 (F := Ideal) e l j = ∑ i : Fin 8192, Cert.Spec.rowMean e l i := by
  rw [val_main_v31_apply, val_main_cst_8_apply, Ideal.ofBits_def, Ideal.ofBits_zero_f32, zero_add,
    ← Equiv.sum_comp rowEquiv.symm]
  exact Finset.sum_congr rfl fun i _ => rowMean_eq e l i

/-- The reference's result, at its one index, is the loss. -/
theorem result_apply (j : S_.Idx) : val_main_v35 (F := Ideal) e l j = Cert.Spec.loss e l := by
  rw [val_main_v35_apply, val_main_v32_apply, total_eq, lossDivisor_eq, Ideal.hostDivf_def, Ideal.hostNegf_def, Ideal.negf_def]
  rfl

/-- The reference's result array is the loss everywhere. -/
theorem result_eq : val_main_v35 (F := Ideal) e l = fun _ => Cert.Spec.loss e l :=
  funext fun j => result_apply e l j

end Cert.ReferenceIdeal.RefValue

end
-- ==== Proof.RefStages.lean ====
/-
  The reference's run, restated over the specification: the composed term the run leaves in the result buffer is the
  last stage of the stage-by-stage reading, that stage is the loss of the two argument arrays, so every weakly fair
  execution of the reference ends with its result buffer at the loss and its arguments unchanged.
-/
import proofs.«138464_j23570780520482_1_alg».proof.Proof.Spec
import proofs.«138464_j23570780520482_1_alg».proof.Proof.RefRunPlainRun
import proofs.«138464_j23570780520482_1_alg».proof.Proof.RefRead
import proofs.«138464_j23570780520482_1_alg».proof.Proof.RefValue

noncomputable section

namespace Cert.ReferenceIdeal.Stages

open Cert.ReferenceIdeal Cert.ReferenceIdeal.Gen Idealize.ShloMosaic Idealize.ShloMosaic.TcCoe Idealize.SL.Sem
  Idealize.ShloMosaic.StableHlo

/-- The term the run states for the result buffer is the last stage, at the two arguments' launch contents. -/
theorem res_eq {F : FTy → Type} [FloatOps F] (m : (ℓ : Loc nD τ sig) → Buf (Elt F) ℓ) (c : Dev nD) :
    Cert.ReferenceIdeal.Plain.res_main_v35 m c
      = Cert.ReferenceIdeal.ReadP.val_main_v35 (F := F) (m ((c.tc : Thread nD τ).loc main_arg0))
          (m ((c.tc : Thread nD τ).loc main_arg1)) := by
  unfold Cert.ReferenceIdeal.Plain.res_main_v35; rfl

/-- On every device, from any memory with zero counters: every weakly fair execution of the reference terminates with its
    result buffer at the loss of the two arguments' launch contents, and the arguments unchanged. -/
theorem run_spec (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v35)
        = (fun _ => Cert.Spec.loss (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono
    (fun _ h c => ⟨(h c).1.trans ((res_eq m c).trans (Cert.ReferenceIdeal.RefValue.result_eq _ _)), (h c).2⟩)
    (Cert.ReferenceIdeal.Plain.run (F := Ideal) m ρ)

end Cert.ReferenceIdeal.Stages

end
-- ==== Proof.Claims.lean ====
/-
  The certificate's five claims from the parts. The idealized kernel's run, from the body's obligation at the value
  leg's proof data, ends with the later operations' term over the two arrays the region wrote in the result buffer and
  with both arguments as launched; the value leg identifies that term with the specification's loss. The idealized
  reference's run ends with the same loss of its own arguments. The kernel as printed runs by the same argument at the
  machine's words. The one named constant reads the value its name is given.
-/
import proofs.«138464_j23570780520482_1_alg».proof.Defs
import proofs.«138464_j23570780520482_1_alg».proof.Proof.Gen.Kernel
import proofs.«138464_j23570780520482_1_alg».proof.Proof.Gen.KernelIdeal
import proofs.«138464_j23570780520482_1_alg».proof.Proof.Gen.ReferenceIdeal
import proofs.«138464_j23570780520482_1_alg».proof.Proof.Gen.Pre_finite_inputs
import proofs.«138464_j23570780520482_1_alg».proof.Proof.KernelValue
import proofs.«138464_j23570780520482_1_alg».proof.Proof.PreservesClaim
import proofs.«138464_j23570780520482_1_alg».proof.Proof.ReadBackIdeal
import proofs.«138464_j23570780520482_1_alg».proof.Proof.BodyBits
import proofs.«138464_j23570780520482_1_alg».proof.Proof.ReadBackBits
import proofs.«138464_j23570780520482_1_alg».proof.Proof.RefStages

noncomputable section

namespace Cert.Proof.Claims

open Idealize.ShloMosaic Idealize.ShloMosaic.TcCoe Idealize.SL.Sem

/-- The idealized kernel's run from the body's obligation, at the proof data of the value leg: the result buffer at
    the later operations' term over the two arrays the region wrote, both arguments as launched. -/
theorem run_pi (m : (ℓ : Loc Cert.KernelIdeal.nD Cert.KernelIdeal.τ Cert.KernelIdeal.sig) → Buf (Elt Ideal) ℓ)
    (ρ : Dev Cert.KernelIdeal.nD → PrngReg) :
    θ_run (Cert.KernelIdeal.defs (F := Ideal)) (onTc (τ := Cert.KernelIdeal.τ) (Cert.KernelIdeal.main (F := Ideal)))
      ⟨m, fun _ => 0, ρ⟩ (fun r => ∀ c : Dev Cert.KernelIdeal.nD,
        r.2.mem ((c.tc : Thread Cert.KernelIdeal.nD Cert.KernelIdeal.τ).loc Cert.KernelIdeal.main_v7)
            = Cert.KernelIdeal.Hand.tailVal (F := Ideal) ((Cert.KernelIdeal.Hand.dats m 0 c).arrAt 4 Cert.KernelIdeal.cfg0.N)
                ((Cert.KernelIdeal.Hand.dats m 0 c).arrAt 5 Cert.KernelIdeal.cfg0.N)
        ∧ r.2.mem ((c.tc : Thread Cert.KernelIdeal.nD Cert.KernelIdeal.τ).loc Cert.KernelIdeal.main_arg0)
            = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1)
            = m ((c.tc : Thread Cert.KernelIdeal.nD Cert.KernelIdeal.τ).loc Cert.KernelIdeal.main_arg1)) :=
  Cert.KernelIdeal.Hand.run_value (F := Ideal) m ρ (Cert.KernelIdeal.Hand.dats m) (Cert.KernelIdeal.Hand.A_eq m)
    (Cert.KernelIdeal.Hand.q0_0 m) (Cert.KernelIdeal.Hand.q0_1 m) (Cert.KernelIdeal.Hand.q0_2 m) (Cert.KernelIdeal.Hand.q0_3 m)
    (fun _ _ => rfl) (fun _ _ => rfl) (fun c => (Cert.KernelIdeal.Hand.body_obligation m c).loose)

/-- The idealized kernel runs and leaves both arguments as launched. -/
theorem frame_pi : Cert.frame_KernelIdeal := fun m ρ _ =>
  (θ_run Cert.KernelIdeal.defs _ _).mono (fun _ h c => (h c).2) (run_pi m ρ)

/-- The idealized reference runs and leaves both arguments as launched. -/
theorem frame_ri : Cert.frame_ReferenceIdeal := fun m ρ _ =>
  (θ_run Cert.ReferenceIdeal.defs _ _).mono (fun _ h c => (h c).2) (Cert.ReferenceIdeal.Stages.run_spec m ρ)

/-- At the ideal instance both programs end with the specification's loss of the launched embeddings and labels in
    their result buffers: the kernel by the value leg, the reference by its run read index by index; the arguments
    agree, so the two losses are one number. -/
theorem algebraic : Cert.algebraic_KernelIdeal_ReferenceIdeal := by
  intro m ρ m' ρ' _ hagree
  refine ⟨fun c => fun _ => Cert.Spec.loss (Cert.KernelIdeal.Hand.embOf m c) (Cert.KernelIdeal.Hand.labOf m c), ?_, ?_⟩
  · exact (θ_run Cert.KernelIdeal.defs _ _).mono
      (fun _ h c => ⟨(h c).1.trans (Cert.KernelIdeal.Hand.kernel_value m c), (h c).2⟩) (run_pi m ρ)
  · refine (θ_run Cert.ReferenceIdeal.defs _ _).mono (fun _ h c => ⟨(h c).1.trans ?_, (h c).2⟩)
      (Cert.ReferenceIdeal.Stages.run_spec m' ρ')
    rw [(hagree c).1, (hagree c).2]
    rfl

/-- The kernel as printed runs and leaves both arguments as launched: the same run at the machine's words, from the
    same body obligation. -/
theorem frame_p : Cert.frame_Kernel := fun m ρ _ =>
  (θ_run Cert.Kernel.defs _ _).mono (fun _ h c => (h c).2)
    (Cert.Kernel.Hand.run_value (F := Bits) m ρ (Cert.Kernel.Hand.dats m) (Cert.Kernel.Hand.A_eq m)
      (Cert.Kernel.Hand.q0_0 m) (Cert.Kernel.Hand.q0_1 m) (Cert.Kernel.Hand.q0_2 m) (Cert.Kernel.Hand.q0_3 m)
      (fun _ _ => rfl) (fun _ _ => rfl) (fun c => (Cert.Kernel.Hand.body_obligation m c).loose))

end Cert.Proof.Claims

end
-- ==== Proof.lean ====
/-
  The certificate: the kernel as printed and its idealization run and leave their arguments as launched; the
  idealization differs from the printed kernel in one named constant; at the ideal instance the kernel and the
  reference both end with the contrastive loss of the launched embeddings and labels, one extended real.
-/
import proofs.«138464_j23570780520482_1_alg».proof.Defs
import proofs.«138464_j23570780520482_1_alg».proof.Proof.Gen.Kernel
import proofs.«138464_j23570780520482_1_alg».proof.Proof.Gen.Kernel.Skeleton
import proofs.«138464_j23570780520482_1_alg».proof.Proof.Gen.Kernel.Launch
import proofs.«138464_j23570780520482_1_alg».proof.Proof.Gen.Kernel.Points
import proofs.«138464_j23570780520482_1_alg».proof.Proof.Gen.KernelIdeal
import proofs.«138464_j23570780520482_1_alg».proof.Proof.Gen.KernelIdeal.Skeleton
import proofs.«138464_j23570780520482_1_alg».proof.Proof.Gen.KernelIdeal.Launch
import proofs.«138464_j23570780520482_1_alg».proof.Proof.Gen.KernelIdeal.Points
import proofs.«138464_j23570780520482_1_alg».proof.Proof.Gen.ReferenceIdeal
import proofs.«138464_j23570780520482_1_alg».proof.Proof.Gen.Pre_finite_inputs
import proofs.«138464_j23570780520482_1_alg».proof.Proof.Claims
import Idealize.ShloMosaic.Adequacy
import Idealize.ShloMosaic.Init

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs.Gen.facts,
  Claims.frame_p, Claims.frame_pi, Claims.frame_ri, Claims.preserves, Claims.algebraic⟩

end Cert.Proof

end
